-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v5_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v5_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000x256 : Shape := ⟨2, ![2000, 256]⟩
abbrev S8000x128 : Shape := ⟨2, ![8000, 128]⟩
abbrev S10000x10000 : Shape := ⟨2, ![10000, 10000]⟩
abbrev S128x256 : Shape := ⟨2, ![128, 256]⟩
abbrev S128 : Shape := ⟨1, ![128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S2000x256 : S_.BroadcastsInDim S2000x256 (![] : Fin 0 → Fin S2000x256.rank)
  reducesTo_S2000x256_S_d0_1 : S2000x256.ReducesTo [0, 1] S_
  h_S_ : 0 < S_.numel
  bcast_S_S8000x128 : S_.BroadcastsInDim S8000x128 (![] : Fin 0 → Fin S8000x128.rank)
  reducesTo_S8000x128_S_d0_1 : S8000x128.ReducesTo [0, 1] S_
  bcast_S_S10000x10000 : S_.BroadcastsInDim S10000x10000 (![] : Fin 0 → Fin S10000x10000.rank)
  reducesTo_S10000x10000_S_d0_1 : S10000x10000.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg7 : FVec F S64 .f32) (main_arg8 : FVec F S64x40 .f32) (main_arg9 : FVec F S40 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x40 .f32 := Host.absf main_arg8
  let main_cst_14 : FVec F S_ .f32 := constant S_ .f32 0x7F800000#32
  let main_v40 : FVec F S64x40 .f32 := broadcastInDim S64x40 ![] bcast_S_S64x40 main_cst_14
  let main_v41 : IVec S64x40 1 := cmpf .olt main_v39 main_v40
  let main_c_15 : IVec S_ 1 := constantI S_ 1 1#1
  let main_v42 : IVec S_ 1 := (fun x v => Host.reduce IntOp.andi x v reducesTo_S64x40_S_d0_1 h_S_) main_v41 main_c_15
  let main_v43 : IVec S_ 1 := andi main_v38 main_v42
  let main_v44 : FVec F S40 .f32 := Host.absf main_arg9
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  main_v48

def fn_part1 {F : FTy → Type} [FloatOps F] (main_arg4 : FVec F S128x256 .f32) (main_arg5 : FVec F S128 .f32) (main_arg6 : FVec F S128x64 .f32) (main_arg7 : FVec F S64 .f32) (main_arg8 : FVec F S64x40 .f32) (main_arg9 : FVec F S40 .f32) (main_v13 : IVec S_ 1) (main_v16 : IVec S10000x10000 1) : IVec S_ 1 :=
  let main_c_5 : IVec S_ 1 := constantI S_ 1 1#1
  let main_v17 : IVec S_ 1 := (fun x v => Host.reduce IntOp.andi x v reducesTo_S10000x10000_S_d0_1 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S2000x256 .f32) (main_arg1 : FVec F S8000x128 .f32) (main_arg2 : FVec F S10000x10000 .f32) (main_arg3 : FVec F S10000x10000 .f32) (main_arg4 : FVec F S128x256 .f32) (main_arg5 : FVec F S128 .f32) (main_arg6 : FVec F S128x64 .f32) (main_arg7 : FVec F S64 .f32) (main_arg8 : FVec F S64x40 .f32) (main_arg9 : FVec F S40 .f32) : IVec S_ 1 :=
  let main_v0 : FVec F S2000x256 .f32 := Host.absf main_arg0
  let main_cst : FVec F S_ .f32 := constant S_ .f32 0x7F800000#32
  let main_v1 : FVec F S2000x256 .f32 := broadcastInDim S2000x256 ![] bcast_S_S2000x256 main_cst
  let main_v2 : IVec S2000x256 1 := cmpf .olt main_v0 main_v1
  let main_c : IVec S_ 1 := constantI S_ 1 1#1
  let main_v3 : IVec S_ 1 := (fun x v => Host.reduce IntOp.andi x v reducesTo_S2000x256_S_d0_1 h_S_) main_v2 main_c
  let main_v4 : FVec F S8000x128 .f32 := Host.absf main_arg1
  let main_cst_0 : FVec F S_ .f32 := constant S_ .f32 0x7F800000#32
  let main_v5 : FVec F S8000x128 .f32 := broadcastInDim S8000x128 ![] bcast_S_S8000x128 main_cst_0
  let main_v6 : IVec S8000x128 1 := cmpf .olt main_v4 main_v5
  let main_c_1 : IVec S_ 1 := constantI S_ 1 1#1
  let main_v7 : IVec S_ 1 := (fun x v => Host.reduce IntOp.andi x v reducesTo_S8000x128_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S10000x10000 .f32 := Host.absf main_arg3
  let main_cst_4 : FVec F S_ .f32 := constant S_ .f32 0x7F800000#32
  let main_v15 : FVec F S10000x10000 .f32 := broadcastInDim S10000x10000 ![] bcast_S_S10000x10000 main_cst_4
  let main_v16 : IVec S10000x10000 1 := cmpf .olt main_v14 main_v15
  fn_part1 (F := F) main_arg4 main_arg5 main_arg6 main_arg7 main_arg8 main_arg9 main_v13 main_v16
-- ==== Kernel.lean ====
abbrev S2000x256 : Shape := ⟨2, ![2000, 256]⟩
abbrev S8000x128 : Shape := ⟨2, ![8000, 128]⟩
abbrev S10000x10000 : Shape := ⟨2, ![10000, 10000]⟩
abbrev S128x256 : Shape := ⟨2, ![128, 256]⟩
abbrev S128 : Shape := ⟨1, ![128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S256x128 : Shape := ⟨2, ![256, 128]⟩
abbrev S1x128 : Shape := ⟨2, ![1, 128]⟩
abbrev S1x64 : Shape := ⟨2, ![1, 64]⟩
abbrev S1x40 : Shape := ⟨2, ![1, 40]⟩
abbrev S10000x64 : Shape := ⟨2, ![10000, 64]⟩
abbrev S8000x64 : Shape := ⟨2, ![8000, 64]⟩
abbrev S2000x128 : Shape := ⟨2, ![2000, 128]⟩
abbrev S2000x64 : Shape := ⟨2, ![2000, 64]⟩
abbrev S10000x40 : Shape := ⟨2, ![10000, 40]⟩
abbrev S400x10000 : Shape := ⟨2, ![400, 10000]⟩
abbrev S400x64 : Shape := ⟨2, ![400, 64]⟩
abbrev S400x40 : Shape := ⟨2, ![400, 40]⟩
abbrev S400 : Shape := ⟨1, ![400]⟩
abbrev S400x1 : Shape := ⟨2, ![400, 1]⟩

abbrev nBuf : Space → Nat
  | .hbm => 18
  | .vmem => 21
  | .smem => 0
  | _ => 0

abbrev bufTy : (tb : Table) → Fin (tcTables nBuf tb) → BufTy
  | .hbm, ⟨0, _⟩ => ⟨S2000x256, .f32⟩
  | .hbm, ⟨1, _⟩ => ⟨S8000x128, .f32⟩
  | .hbm, ⟨2, _⟩ => ⟨S10000x10000, .f32⟩
  | .hbm, ⟨3, _⟩ => ⟨S10000x10000, .f32⟩
  | .hbm, ⟨4, _⟩ => ⟨S128x256, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x40, .f32⟩
  | .hbm, ⟨9, _⟩ => ⟨S40, .f32⟩
  | .hbm, ⟨10, _⟩ => ⟨S256x128, .f32⟩
  | .hbm, ⟨11, _⟩ => ⟨S1x128, .f32⟩
  | .hbm, ⟨12, _⟩ => ⟨S1x64, .f32⟩
  | .hbm, ⟨13, _⟩ => ⟨S1x40, .f32⟩
  | .hbm, ⟨14, _⟩ => ⟨S10000x64, .f32⟩
  | .hbm, ⟨15, _⟩ => ⟨S10000x64, .f32⟩
  | .hbm, ⟨16, _⟩ => ⟨S10000x40, .f32⟩
  | .hbm, ⟨17, _⟩ => ⟨S10000x40, .f32⟩
  | .local _ .vmem, ⟨0, _⟩ => ⟨S2000x256, .f32⟩
  | .local _ .vmem, ⟨1, _⟩ => ⟨S8000x128, .f32⟩
  | .local _ .vmem, ⟨2, _⟩ => ⟨S256x128, .f32⟩
  | .local _ .vmem, ⟨3, _⟩ => ⟨S1x128, .f32⟩
  | .local _ .vmem, ⟨4, _⟩ => ⟨S128x64, .f32⟩
  | .local _ .vmem, ⟨5, _⟩ => ⟨S10000x64, .f32⟩
  | .local _ .vmem, ⟨6, _⟩ => ⟨S400x10000, .f32⟩
  | .local _ .vmem, ⟨7, _⟩ => ⟨S400x10000, .f32⟩
  | .local _ .vmem, ⟨8, _⟩ => ⟨S10000x64, .f32⟩
  | .local _ .vmem, ⟨9, _⟩ => ⟨S1x64, .f32⟩
  | .local _ .vmem, ⟨10, _⟩ => ⟨S64x40, .f32⟩
  | .local _ .vmem, ⟨11, _⟩ => ⟨S400x64, .f32⟩
  | .local _ .vmem, ⟨12, _⟩ => ⟨S400x64, .f32⟩
  | .local _ .vmem, ⟨13, _⟩ => ⟨S400x40, .f32⟩
  | .local _ .vmem, ⟨14, _⟩ => ⟨S400x40, .f32⟩
  | .local _ .vmem, ⟨15, _⟩ => ⟨S400x10000, .f32⟩
  | .local _ .vmem, ⟨16, _⟩ => ⟨S400x10000, .f32⟩
  | .local _ .vmem, ⟨17, _⟩ => ⟨S10000x40, .f32⟩
  | .local _ .vmem, ⟨18, _⟩ => ⟨S1x40, .f32⟩
  | .local _ .vmem, ⟨19, _⟩ => ⟨S400x40, .f32⟩
  | .local _ .vmem, ⟨20, _⟩ => ⟨S400x40, .f32⟩
  | _, _ => ⟨S2000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v6 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := .none

abbrev stage0_0 : Fin 1 → Memref sig .tc .vmem S2000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10000x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S400x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  transposes_S128x256_S256x128_1_0 : S128x256.Transposes [1, 0] S256x128
  shapeCasts_S128_S1x128 : S128.ShapeCasts S1x128
  shapeCasts_S64_S1x64 : S64.ShapeCasts S1x64
  shapeCasts_S40_S1x40 : S40.ShapeCasts S1x40
  inb_S128x64_S128x64_0_0 : ∀ a, (![0, 0] : Fin 2 → Nat) a + S128x64.size a ≤ S128x64.size a
  h_S128x64 : 0 < S128x64.numel
  inb_S8000x128_S8000x128_0_0 : ∀ a, (![0, 0] : Fin 2 → Nat) a + S8000x128.size a ≤ S8000x128.size a
  h_S8000x128 : 0 < S8000x128.numel
  inb_S10000x64_S8000x64_0_0 : ∀ a, (![0, 0] : Fin 2 → Nat) a + S8000x64.size a ≤ S10000x64.size a
  h_S8000x64 : 0 < S8000x64.numel
  inb_S2000x256_S2000x256_0_0 : ∀ a, (![0, 0] : Fin 2 → Nat) a + S2000x256.size a ≤ S2000x256.size a
  h_S2000x256 : 0 < S2000x256.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S10000x64_S2000x64_8000_0 : ∀ a, (![8000, 0] : Fin 2 → Nat) a + S2000x64.size a ≤ S10000x64.size a
  h_S2000x64 : 0 < S2000x64.numel
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S400x64_S400x64_0_0 : ∀ a, (![0, 0] : Fin 2 → Nat) a + S400x64.size a ≤ S400x64.size a
  h_S400x64 : 0 < S400x64.numel
  inb_S64x40_S64x40_0_0 : ∀ a, (![0, 0] : Fin 2 → Nat) a + S64x40.size a ≤ S64x40.size a
  h_S64x40 : 0 < S64x40.numel
  inb_S400x40_S400x40_0_0 : ∀ a, (![0, 0] : Fin 2 → Nat) a + S400x40.size a ≤ S400x40.size a
  h_S400x40 : 0 < S400x40.numel
  inb_S10000x40_S10000x40_0_0 : ∀ a, (![0, 0] : Fin 2 → Nat) a + S10000x40.size a ≤ S10000x40.size a
  h_S10000x40 : 0 < S10000x40.numel
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S400x40 : S1x40.Broadcasts S400x40
  reduces_S400x40_S400 : S400x40.Reduces [1] S400
  shapeCasts_S400_S400x1 : S400.ShapeCasts S400x1
  broadcasts_S400x1_S400x40 : S400x1.Broadcasts S400x40
  dot_S8000x128_S128x64_S8000x64_1_0_0_1_n_n_wf : DotDims.WF S8000x128 S128x64 S8000x64 [1] [0] [0] [1] [] []
  dot_S2000x256_S256x128_S2000x128_1_0_0_1_n_n_wf : DotDims.WF S2000x256 S256x128 S2000x128 [1] [0] [0] [1] [] []
  dot_S2000x128_S128x64_S2000x64_1_0_0_1_n_n_wf : DotDims.WF S2000x128 S128x64 S2000x64 [1] [0] [0] [1] [] []
  dot_S400x10000_S10000x64_S400x64_1_0_0_1_n_n_wf : DotDims.WF S400x10000 S10000x64 S400x64 [1] [0] [0] [1] [] []
  dot_S400x64_S64x40_S400x40_1_0_0_1_n_n_wf : DotDims.WF S400x64 S64x40 S400x40 [1] [0] [0] [1] [] []
  dot_S400x10000_S10000x40_S400x40_1_0_0_1_n_n_wf : DotDims.WF S400x10000 S10000x40 S400x40 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .f32 = 32 ∨ (Rect.block (s := S10000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x40.size a ≤ S64x40.size a
  hwx1_3 : ∀ i : grid1.Coords, EltTy.bits .f32 = 32 ∨ (Rect.block (s := S64x40) S64x40.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x64.size a ≤ S10000x64.size a
  hwx1_4 : ∀ i : grid1.Coords, EltTy.bits .f32 = 32 ∨ (Rect.block (s := S10000x64) S400x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x40.size a ≤ S10000x40.size a
  hwx1_5 : ∀ i : grid1.Coords, EltTy.bits .f32 = 32 ∨ (Rect.block (s := S10000x40) S400x40.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x40.size a ≤ S10000x40.size a
  hwx2_1 : ∀ i : grid2.Coords, EltTy.bits .f32 = 32 ∨ (Rect.block (s := S10000x40) S10000x40.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x40.size a ≤ S10000x40.size a
  hwx2_3 : ∀ i : grid2.Coords, EltTy.bits .f32 = 32 ∨ (Rect.block (s := S10000x40) S400x40.size (cc2_transform_3 i) (hinb2_3 i)).WholeWords (EltTy.packing .f32)

variable [Facts₀]

def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x40_S400x40_1_0_0_1_n_n : DotDims S400x64 S64x40 S400x40 where
  lhsContracting := [1]
  rhsContracting := [0]
  lhsNonContracting := [0]
  rhsNonContracting := [1]
  lhsBatch := []
  rhsBatch := []
  wf := dot_S400x64_S64x40_S400x40_1_0_0_1_n_n_wf
def dot_S400x10000_S10000x40_S400x40_1_0_0_1_n_n : DotDims S400x10000 S10000x40 S400x40 where
  lhsContracting := [1]
  rhsContracting := [0]
  lhsNonContracting := [0]
  rhsNonContracting := [1]
  lhsBatch := []
  rhsBatch := []
  wf := dot_S400x10000_S10000x40_S400x40_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v0) false false (stage0_2 0) (sem0_2 0) (Memref.isWhole_whole _) (hstage0_2 0)

abbrev win0_3 : Pipeline.Window sig grid0 :=
  Pipeline.Window.whole (Memref.whole main_v1) false false (stage0_3 0) (sem0_3 0) (Memref.isWhole_whole _) (hstage0_3 0)

abbrev win0_4 : Pipeline.Window sig grid0 :=
  Pipeline.Window.whole (Memref.whole main_arg6) false false (stage0_4 0) (sem0_4 0) (Memref.isWhole_whole _) (hstage0_4 0)

abbrev win0_5 : Pipeline.Window sig grid0 :=
  Pipeline.Window.whole (Memref.whole main_v4) true false (stage0_5 0) (sem0_5 0) (Memref.isWhole_whole _) (hstage0_5 0)

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg2) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5_0) S400x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5_1) S400x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg3) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5_1) S10000x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S400x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2000x256 : Shape := ⟨2, ![2000, 256]⟩
abbrev S8000x128 : Shape := ⟨2, ![8000, 128]⟩
abbrev S10000x10000 : Shape := ⟨2, ![10000, 10000]⟩
abbrev S128x256 : Shape := ⟨2, ![128, 256]⟩
abbrev S128 : Shape := ⟨1, ![128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S256x128 : Shape := ⟨2, ![256, 128]⟩
abbrev S2000x128 : Shape := ⟨2, ![2000, 128]⟩
abbrev S1x128 : Shape := ⟨2, ![1, 128]⟩
abbrev S10000x128 : Shape := ⟨2, ![10000, 128]⟩
abbrev S10000x64 : Shape := ⟨2, ![10000, 64]⟩
abbrev S1x64 : Shape := ⟨2, ![1, 64]⟩
abbrev S_ : Shape := ⟨0, ![]⟩
abbrev S10000x40 : Shape := ⟨2, ![10000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 44
  | .vmem => 0
  | .smem => 0
  | _ => 0

abbrev bufTy : (tb : Table) → Fin (tcTables nBuf tb) → BufTy
  | .hbm, ⟨0, _⟩ => ⟨S2000x256, .f32⟩
  | .hbm, ⟨1, _⟩ => ⟨S8000x128, .f32⟩
  | .hbm, ⟨2, _⟩ => ⟨S10000x10000, .f32⟩
  | .hbm, ⟨3, _⟩ => ⟨S10000x10000, .f32⟩
  | .hbm, ⟨4, _⟩ => ⟨S128x256, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x40, .f32⟩
  | .hbm, ⟨9, _⟩ => ⟨S40, .f32⟩
  | .hbm, ⟨10, _⟩ => ⟨S256x128, .f32⟩
  | .hbm, ⟨11, _⟩ => ⟨S2000x128, .f32⟩
  | .hbm, ⟨12, _⟩ => ⟨S1x128, .f32⟩
  | .hbm, ⟨13, _⟩ => ⟨S2000x128, .f32⟩
  | .hbm, ⟨14, _⟩ => ⟨S2000x128, .f32⟩
  | .hbm, ⟨15, _⟩ => ⟨S10000x128, .f32⟩
  | .hbm, ⟨16, _⟩ => ⟨S10000x64, .f32⟩
  | .hbm, ⟨17, _⟩ => ⟨S10000x64, .f32⟩
  | .hbm, ⟨18, _⟩ => ⟨S1x64, .f32⟩
  | .hbm, ⟨19, _⟩ => ⟨S10000x64, .f32⟩
  | .hbm, ⟨20, _⟩ => ⟨S10000x64, .f32⟩
  | .hbm, ⟨21, _⟩ => ⟨S_, .f32⟩
  | .hbm, ⟨22, _⟩ => ⟨S10000x64, .f32⟩
  | .hbm, ⟨23, _⟩ => ⟨S10000x64, .f32⟩
  | .hbm, ⟨24, _⟩ => ⟨S10000x40, .f32⟩
  | .hbm, ⟨25, _⟩ => ⟨S10000x40, .f32⟩
  | .hbm, ⟨26, _⟩ => ⟨S1x40, .f32⟩
  | .hbm, ⟨27, _⟩ => ⟨S10000x40, .f32⟩
  | .hbm, ⟨28, _⟩ => ⟨S10000x40, .f32⟩
  | .hbm, ⟨29, _⟩ => ⟨S_, .f32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S10000x1, .f32⟩
  | .hbm, ⟨35, _⟩ => ⟨S10000x40, .f32⟩
  | .hbm, ⟨36, _⟩ => ⟨S10000x40, .f32⟩
  | .hbm, ⟨37, _⟩ => ⟨S10000x40, .f32⟩
  | .hbm, ⟨38, _⟩ => ⟨S_, .f32⟩
  | .hbm, ⟨39, _⟩ => ⟨S10000, .f32⟩
  | .hbm, ⟨40, _⟩ => ⟨S10000x1, .f32⟩
  | .hbm, ⟨41, _⟩ => ⟨S10000x1, .f32⟩
  | .hbm, ⟨42, _⟩ => ⟨S10000x40, .f32⟩
  | .hbm, ⟨43, _⟩ => ⟨S10000x40, .f32⟩
  | _, _ => ⟨S2000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_cst : Ref sig .tc := ⟨.hbm, 21, rfl⟩
abbrev main_call0_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call1_cst : Ref sig .tc := ⟨.hbm, 29, rfl⟩
abbrev main_call1_v0 : Ref sig .tc := ⟨.hbm, 30, rfl⟩
abbrev main_call1_cst_0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_cst_1 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_v17 : Ref sig .tc := ⟨.hbm, 43, rfl⟩

abbrev nD : Nat := 1
abbrev τ : Topo := Topo.v7x

variable {F : FTy → Type} [FloatOps F]

class Facts₀ : Prop where
  transposes_S128x256_S256x128_1_0 : S128x256.Transposes [1, 0] S256x128
  bcast_S128_S1x128_1 : S128.BroadcastsInDim S1x128 (![1] : Fin 1 → Fin S1x128.rank)
  bcast_S1x128_S2000x128_0_1 : S1x128.BroadcastsInDim S2000x128 (![0, 1] : Fin 2 → Fin S2000x128.rank)
  concatenates_S8000x128_S2000x128_S10000x128_d0 : Shape.Concatenates [S8000x128, S2000x128] S10000x128 0
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  reducesTo_S10000x40_S10000_d1 : S10000x40.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x40_0_1 : S10000x1.BroadcastsInDim S10000x40 (![0, 1] : Fin 2 → Fin S10000x40.rank)
  dot_S2000x256_S256x128_S2000x128_1_0_0_1_n_n_wf : DotDims.WF S2000x256 S256x128 S2000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x40_S10000x40_1_0_0_1_n_n_wf : DotDims.WF S10000x64 S64x40 S10000x40 [1] [0] [0] [1] [] []
  dot_S10000x10000_S10000x40_S10000x40_1_0_0_1_n_n_wf : DotDims.WF S10000x10000 S10000x40 S10000x40 [1] [0] [0] [1] [] []

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def dot_S10000x10000_S10000x40_S10000x40_1_0_0_1_n_n : DotDims S10000x10000 S10000x40 S10000x40 where
  lhsContracting := [1]
  rhsContracting := [0]
  lhsNonContracting := [0]
  rhsNonContracting := [1]
  lhsBatch := []
  rhsBatch := []
  wf := dot_S10000x10000_S10000x40_S10000x40_1_0_0_1_n_n_wf

class Facts : Prop extends Facts₀ where

variable [Facts]
-- ==== Proof.Spec.lean ====
/-
  The mathematics both programs compute, stated once, index by index on the extended reals.

  A graph-convolution head over 10000 nodes: the 2000 embedded nodes are first mapped by an affine layer
  (x ↦ x · Wᵀ + b) and stacked under the 8000 given feature rows; the stack is projected (· W₁), mixed by a dense
  adjacency (F ·), biased and clipped at zero; the result is projected again (· W₂), mixed by a second adjacency
  (C ·), biased, and each row is normalised by log-softmax.

  Everything here is over arrays of extended reals indexed as a rank-2 buffer is: `mm` is the row-by-column product
  ∑ₖ A(r,k) · B(k,j); `addRow` adds a one-row array to every row; `stack` puts one array's rows above another's.
  Two facts carry the comparison of the two programs:
    * a product of stacked rows is the stack of the products (`mm_stack`): one program multiplies the stack, the other
      multiplies the two parts and writes them one above the other;
    * log-softmax written z − (log ∑ exp(z − m) + m) is the one written (z − m) − log ∑ exp(z − m) whenever the row
      maximum m is a real number (`lsmK_eq_lsm`): on the extended reals −(L + m) = −L − m can fail when m is infinite,
      so the law is proved for rows of real numbers, and every entry IS a real number when the inputs are
      (`IsReal` and its closure under sums, products and maxima).
-/
import Idealize.ShloMosaic.Lib.ValueIdx
import Idealize.ShloMosaic.PureOps.Ideal.Laws

noncomputable section

namespace Cert.GcnHead

open Idealize.ShloMosaic Idealize.ShloMosaic.ValueIdx

/-- An `a × b` array of extended reals, indexed as a rank-2 buffer of those extents is. -/
abbrev Mat (a b : Nat) : Type := (⟨2, ![a, b]⟩ : Shape).Idx → EReal
/-- A length-`a` array of extended reals, indexed as a rank-1 buffer is. -/
abbrev Arr (a : Nat) : Type := (⟨1, ![a]⟩ : Shape).Idx → EReal

/-! ## The operations -/

/-- Row-by-column product: (A · B)(r, j) = ∑ₖ A(r, k) · B(k, j). -/
def mm {a k b : Nat} (A : Mat a k) (B : Mat k b) : Mat a b :=
  fun i => ∑ q : Fin k, A (ix2 (i 0) q) * B (ix2 q (i 1))

/-- The one-row array added to every row. -/
def addRow {a b : Nat} (X : Mat a b) (v : Mat 1 b) : Mat a b :=
  fun i => X i + v (ix2 (0 : Fin 1) (i 1))

/-- A vector laid out as one row. -/
def rowOf {b : Nat} (v : Arr b) : Mat 1 b := fun i => v (ix1 (i 1))

/-- Clipping at zero. -/
def relu {a b : Nat} (X : Mat a b) : Mat a b := fun i => max (X i) 0

/-- The transposed array. -/
def tr {a b : Nat} (W : Mat a b) : Mat b a := fun i => W (ix2 (i 1) (i 0))

/-- The rows of `Y` above the rows of `X` (rows past both, if `n` had any, are zero). -/
def stack {a a' n b : Nat} (Y : Mat a b) (X : Mat a' b) : Mat n b := fun i =>
  if h : (i 0).val < a then Y (ix2 ⟨(i 0).val, h⟩ (i 1))
  else if h' : (i 0).val - a < a' then X (ix2 ⟨(i 0).val - a, h'⟩ (i 1)) else 0

/-- A row's maximum (over no entries: −∞). -/
def rowMax {a b : Nat} (Z : Mat a b) (r : Fin a) : EReal :=
  (Finset.univ : Finset (Fin b)).fold max ⊥ (fun j => Z (ix2 r j))

/-- log ∑ⱼ exp(z(r, j) − m(r)), m the row's maximum. -/
def rowLse {a b : Nat} (Z : Mat a b) (r : Fin a) : EReal :=
  Ideal.log (∑ j : Fin b, Ideal.exp (Z (ix2 r j) - rowMax Z r))

/-- Log-softmax of each row, spelled (z − m) − log ∑ exp(z − m). -/
def lsm {a b : Nat} (Z : Mat a b) : Mat a b := fun i => (Z i - rowMax Z (i 0)) - rowLse Z (i 0)

/-- Log-softmax of each row, spelled z − (log ∑ exp(z − m) + m). -/
def lsmK {a b : Nat} (Z : Mat a b) : Mat a b := fun i => Z i - (rowLse Z (i 0) + rowMax Z (i 0))

/-! ## The head, as functions of the ten inputs -/

/-- The projected stack: the given rows times W₁ above the mapped embedded rows times W₁. -/
def S1 (Xe : Mat 2000 256) (Y : Mat 8000 128) (fW : Mat 128 256) (fb : Arr 128) (W1 : Mat 128 64) : Mat 10000 64 :=
  stack (mm Y W1) (mm (addRow (mm Xe (tr fW)) (rowOf fb)) W1)

/-- The first graph convolution: relu (F · S₁ + b₁). -/
def Yemb (Xe : Mat 2000 256) (Y : Mat 8000 128) (F : Mat 10000 10000) (fW : Mat 128 256) (fb : Arr 128)
    (W1 : Mat 128 64) (b1 : Arr 64) : Mat 10000 64 :=
  relu (addRow (mm F (S1 Xe Y fW fb W1)) (rowOf b1))

/-- The second convolution's logits: C · (Yemb · W₂) + b₂. -/
def Logits (Xe : Mat 2000 256) (Y : Mat 8000 128) (F C : Mat 10000 10000) (fW : Mat 128 256) (fb : Arr 128)
    (W1 : Mat 128 64) (b1 : Arr 64) (W2 : Mat 64 40) (b2 : Arr 40) : Mat 10000 40 :=
  addRow (mm C (mm (Yemb Xe Y F fW fb W1 b1) W2)) (rowOf b2)

/-! ## A product of stacked rows -/

theorem mm_stack {a a' n k b : Nat} (Y : Mat a k) (X : Mat a' k) (W : Mat k b) :
    mm (stack Y X : Mat n k) W = stack (mm Y W) (mm X W) := by
  funext i
  show ∑ q : Fin k, (stack Y X : Mat n k) (ix2 (i 0) q) * W (ix2 q (i 1)) = (stack (mm Y W) (mm X W) : Mat n b) i
  by_cases h : (i 0).val < a
  · have e : ∀ q : Fin k, (stack Y X : Mat n k) (ix2 (i 0) q) = Y (ix2 ⟨(i 0).val, h⟩ q) := fun q => dif_pos h
    rw [show (stack (mm Y W) (mm X W) : Mat n b) i = mm Y W (ix2 ⟨(i 0).val, h⟩ (i 1)) from dif_pos h]
    simp only [e]; rfl
  · by_cases h' : (i 0).val - a < a'
    · have e : ∀ q : Fin k, (stack Y X : Mat n k) (ix2 (i 0) q) = X (ix2 ⟨(i 0).val - a, h'⟩ q) :=
        fun q => (dif_neg h).trans (dif_pos h')
      rw [show (stack (mm Y W) (mm X W) : Mat n b) i = mm X W (ix2 ⟨(i 0).val - a, h'⟩ (i 1)) from (dif_neg h).trans (dif_pos h')]
      simp only [e]; rfl
    · have e : ∀ q : Fin k, (stack Y X : Mat n k) (ix2 (i 0) q) = 0 := fun q => (dif_neg h).trans (dif_neg h')
      rw [show (stack (mm Y W) (mm X W) : Mat n b) i = 0 from (dif_neg h).trans (dif_neg h')]
      simp only [e, zero_mul, Finset.sum_const_zero]

/-! ## Entries that are real numbers -/

/-- An extended real that is a real number. -/
def IsReal (x : EReal) : Prop := ∃ r : ℝ, x = (r : EReal)

theorem IsReal.ne_top {x : EReal} (h : IsReal x) : x ≠ ⊤ := by obtain ⟨r, rfl⟩ := h; exact EReal.coe_ne_top r
theorem IsReal.ne_bot {x : EReal} (h : IsReal x) : x ≠ ⊥ := by obtain ⟨r, rfl⟩ := h; exact EReal.coe_ne_bot r
theorem isReal_of_ne {x : EReal} (h1 : x ≠ ⊤) (h2 : x ≠ ⊥) : IsReal x := ⟨x.toReal, (EReal.coe_toReal h1 h2).symm⟩
theorem isReal_zero : IsReal 0 := ⟨0, rfl⟩
theorem IsReal.add {x y : EReal} (hx : IsReal x) (hy : IsReal y) : IsReal (x + y) := by
  obtain ⟨r, rfl⟩ := hx; obtain ⟨s, rfl⟩ := hy; exact ⟨r + s, (EReal.coe_add r s).symm⟩
theorem IsReal.mul {x y : EReal} (hx : IsReal x) (hy : IsReal y) : IsReal (x * y) := by
  obtain ⟨r, rfl⟩ := hx; obtain ⟨s, rfl⟩ := hy; exact ⟨r * s, (EReal.coe_mul r s).symm⟩
theorem IsReal.max {x y : EReal} (hx : IsReal x) (hy : IsReal y) : IsReal (max x y) := by
  rcases max_choice x y with h | h <;> rw [h] <;> assumption
theorem isReal_sum {ι : Type} (s : Finset ι) (f : ι → EReal) (h : ∀ k ∈ s, IsReal (f k)) : IsReal (∑ k ∈ s, f k) :=
  Finset.sum_induction f IsReal (fun _ _ => IsReal.add) isReal_zero h

theorem isReal_mm {a k b : Nat} {A : Mat a k} {B : Mat k b} (hA : ∀ i, IsReal (A i)) (hB : ∀ i, IsReal (B i)) (i) :
    IsReal (mm A B i) := isReal_sum _ _ fun q _ => (hA _).mul (hB _)
theorem isReal_addRow {a b : Nat} {X : Mat a b} {v : Mat 1 b} (hX : ∀ i, IsReal (X i)) (hv : ∀ i, IsReal (v i)) (i) :
    IsReal (addRow X v i) := (hX i).add (hv _)
theorem isReal_rowOf {b : Nat} {v : Arr b} (hv : ∀ i, IsReal (v i)) (i) : IsReal (rowOf v i) := hv _
theorem isReal_relu {a b : Nat} {X : Mat a b} (hX : ∀ i, IsReal (X i)) (i) : IsReal (relu X i) := (hX i).max isReal_zero
theorem isReal_tr {a b : Nat} {W : Mat a b} (hW : ∀ i, IsReal (W i)) (i) : IsReal (tr W i) := hW _
theorem isReal_stack {a a' n b : Nat} {Y : Mat a b} {X : Mat a' b} (hY : ∀ i, IsReal (Y i)) (hX : ∀ i, IsReal (X i)) (i) :
    IsReal ((stack Y X : Mat n b) i) := by
  unfold stack
  split
  · exact hY _
  · split
    · exact hX _
    · exact isReal_zero

/-- Every logit is a real number when every input entry is. -/
theorem isReal_Logits {Xe : Mat 2000 256} {Y : Mat 8000 128} {F C : Mat 10000 10000} {fW : Mat 128 256} {fb : Arr 128}
    {W1 : Mat 128 64} {b1 : Arr 64} {W2 : Mat 64 40} {b2 : Arr 40}
    (hXe : ∀ i, IsReal (Xe i)) (hY : ∀ i, IsReal (Y i)) (hF : ∀ i, IsReal (F i)) (hC : ∀ i, IsReal (C i))
    (hfW : ∀ i, IsReal (fW i)) (hfb : ∀ i, IsReal (fb i)) (hW1 : ∀ i, IsReal (W1 i)) (hb1 : ∀ i, IsReal (b1 i))
    (hW2 : ∀ i, IsReal (W2 i)) (hb2 : ∀ i, IsReal (b2 i)) (i) :
    IsReal (Logits Xe Y F C fW fb W1 b1 W2 b2 i) := by
  unfold Logits Yemb S1
  exact isReal_addRow (isReal_mm hC (isReal_mm (isReal_relu (isReal_addRow (isReal_mm hF
    (isReal_stack (isReal_mm hY hW1) (isReal_mm (isReal_addRow (isReal_mm hXe (isReal_tr hfW)) (isReal_rowOf hfb)) hW1)))
    (isReal_rowOf hb1))) hW2)) (isReal_rowOf hb2) i

/-! ## The two spellings of log-softmax -/

/-- The maximum of a non-empty row of real numbers is a real number. -/
theorem isReal_rowMax {a b : Nat} (Z : Mat a b) (r : Fin a) (hb : 0 < b) (h : ∀ j : Fin b, IsReal (Z (ix2 r j))) :
    IsReal (rowMax Z r) := by
  unfold rowMax
  refine isReal_of_ne (ne_of_lt ?_) (ne_of_gt ?_)
  · exact (Finset.fold_max_lt _).mpr ⟨bot_lt_top, fun j _ => lt_top_iff_ne_top.mpr (h j).ne_top⟩
  · have hle : Z (ix2 r ⟨0, hb⟩) ≤ (Finset.univ : Finset (Fin b)).fold max ⊥ (fun j => Z (ix2 r j)) :=
      (Finset.le_fold_max _).mpr (Or.inr ⟨⟨0, hb⟩, Finset.mem_univ _, le_rfl⟩)
    exact lt_of_lt_of_le (bot_lt_iff_ne_bot.mpr (h ⟨0, hb⟩).ne_bot) hle

/-- Subtracting L + m, with m a real number, is subtracting m and then L: −(L + m) = −L − m needs only that m is finite. -/
theorem sub_add_coe (x L : EReal) (m : ℝ) : x - (L + (m : EReal)) = (x - (m : EReal)) - L := by
  rw [sub_eq_add_neg, EReal.neg_add (Or.inr (EReal.coe_ne_top m)) (Or.inr (EReal.coe_ne_bot m)),
    sub_eq_add_neg, sub_eq_add_neg, sub_eq_add_neg, add_comm (-L) (-(m : EReal)), ← add_assoc]

/-- On non-empty rows of real numbers the two spellings of log-softmax agree. -/
theorem lsmK_eq_lsm {a b : Nat} (Z : Mat a b) (hb : 0 < b) (hZ : ∀ i, IsReal (Z i)) : lsmK Z = lsm Z := by
  funext i
  obtain ⟨m, hm⟩ := isReal_rowMax Z (i 0) hb (fun j => hZ _)
  unfold lsmK lsm
  rw [hm]
  exact sub_add_coe _ _ m

/-! ## Two literals -/

/-- The word 0xFF800000 is −∞. -/
theorem ofBits_neg_inf : Ideal.ofBits .f32 0xFF800000#32 = ⊥ := by simp [Ideal.ofBits, Ideal.ieee]

end Cert.GcnHead

end
-- ==== Proof.Finite.lean ====
/-
  Under the precondition every input entry is a real number.

  The precondition is the conjunction, over the ten inputs, of "every entry's absolute value is below +∞". An extended
  real whose absolute value max x (−x) is below +∞ is neither +∞ nor −∞, so it is a real number. Each conjunct is an
  and-reduction over the whole array of the entrywise comparison, which is all ones exactly when every entry passes.
-/
import proofs.«106104_g84250078479002_cont_sun_c4_284_3_alg».proof.Proof.Gen.Pre_finite_inputs
import proofs.«106104_g84250078479002_cont_sun_c4_284_3_alg».proof.Proof.Spec
import Idealize.ShloMosaic.Lib.ReduceAll
import Idealize.ShloMosaic.Lib.ValueIdx
import Idealize.ShloMosaic.PureOps.Ideal.Laws

noncomputable section

namespace Cert.Pre_finite_inputs.Finite

open Idealize.ShloMosaic Idealize.ShloMosaic.ValueIdx
open Cert.Pre_finite_inputs Cert.GcnHead

/-- The f32 word 0x7F800000 (sign clear, exponent all ones, fraction zero) is +∞. -/
theorem ofBits_inf : Ideal.ofBits .f32 0x7F800000#32 = (⊤ : EReal) := by
  simp [Ideal.ofBits, Ideal.ieee]

/-- An extended real whose absolute value max x (−x) compares below +∞ is a real number: x < +∞ rules out +∞,
    and −x < +∞ rules out −∞. -/
theorem isReal_of_abs_lt (x : EReal)
    (h : Ideal.cmp .olt (max x (-x)) (Ideal.ofBits .f32 0x7F800000#32) = 1#1) : IsReal x := by
  rw [ofBits_inf] at h
  have hlt : max x (-x) < ⊤ := by
    by_contra hn
    simp [Ideal.cmp, hn] at h
  rw [max_lt_iff] at hlt
  refine isReal_of_ne (ne_of_lt hlt.1) ?_
  rintro rfl
  exact absurd hlt.2 (by simp)

/-- The rank-0 index set has one element. -/
theorem subsingleton_idx0 : Subsingleton S_.Idx := ⟨fun a b => funext fun d => d.elim0⟩

/-- One conjunct of the precondition, over an array of any shape: if the and-reduction over all axes (from true) of the
    entrywise comparison |x| < +∞ comes out one, every entry of x is a real number. -/
theorem isReal_of_all {s : Shape} {axes : List (Fin s.rank)} (x : s.Idx → EReal)
    (hb : S_.BroadcastsInDim s (![] : Fin 0 → Fin s.rank)) (hr : s.ReducesTo axes S_) (hu : 0 < S_.numel)
    (e : Host.reduce IntOp.andi
          (cmpf .olt (Host.absf (F := Ideal) (φ := .f32) x)
            (broadcastInDim s ![] hb (constant (F := Ideal) S_ .f32 0x7F800000#32)))
          (constantI S_ 1 1#1) hr hu ix0 = 1#1) (i : s.Idx) : IsReal (x i) :=
  haveI := subsingleton_idx0
  isReal_of_abs_lt (x i) (Host.reduce_andi_all _ _ hr hu ix0 e i)

/-- If the precondition's predicate is all ones on ten arrays of extended reals, every entry of each is a real number. -/
theorem isReal_of_pre [Cert.Pre_finite_inputs.Facts]
    (a0 : Mat 2000 256) (a1 : Mat 8000 128) (a2 a3 : Mat 10000 10000) (a4 : Mat 128 256) (a5 : Arr 128)
    (a6 : Mat 128 64) (a7 : Arr 64) (a8 : Mat 64 40) (a9 : Arr 40)
    (h : Cert.Pre_finite_inputs.fn (F := Ideal) a0 a1 a2 a3 a4 a5 a6 a7 a8 a9 = fun _ => 1#1) :
    (∀ i, IsReal (a0 i)) ∧ (∀ i, IsReal (a1 i)) ∧ (∀ i, IsReal (a2 i)) ∧ (∀ i, IsReal (a3 i)) ∧ (∀ i, IsReal (a4 i))
    ∧ (∀ i, IsReal (a5 i)) ∧ (∀ i, IsReal (a6 i)) ∧ (∀ i, IsReal (a7 i)) ∧ (∀ i, IsReal (a8 i)) ∧ (∀ i, IsReal (a9 i)) := by
  have h0 := congrFun h ix0
  dsimp only [fn, fn_part1, fn_part2, andi] at h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨isReal_of_all a0 _ _ _ e0, isReal_of_all a1 _ _ _ e1, isReal_of_all a2 _ _ _ e2, isReal_of_all a3 _ _ _ e3,
    isReal_of_all a4 _ _ _ e4, isReal_of_all a5 _ _ _ e5, isReal_of_all a6 _ _ _ e6, isReal_of_all a7 _ _ _ e7,
    isReal_of_all a8 _ _ _ e8, isReal_of_all a9 _ _ _ e9⟩

end Cert.Pre_finite_inputs.Finite

end
-- ==== Proof.Region0.lean ====
/-
  The first region's result array. The region has one grid point; its body writes the given rows times W₁ into rows
  0 … 7999 of its output and the mapped embedded rows times W₁ into rows 8000 … 9999, so after the one write-back the
  output array is the stack of those two products.
-/
import proofs.«106104_g84250078479002_cont_sun_c4_284_3_alg».proof.Proof.Gen.KernelIdeal.Frame
import proofs.«106104_g84250078479002_cont_sun_c4_284_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.GcnHead

open Idealize.ShloMosaic.Tactic

/-! ## The body's three products, index by index

A matrix-unit product into a zero accumulator is, entry by entry, the sum over the one contracted axis of the left
operand's row entry times the right operand's column entry. For each of the three dimension-number records the four
facts below say which coordinate of an operand index comes from the output index and which from the contracted one. -/

theorem lhsY_0 (i : S8000x64.Idx) (q : dot_S8000x128_S128x64_S8000x64_1_0_0_1_n_n.contr.Idx) :
    (dot_S8000x128_S128x64_S8000x64_1_0_0_1_n_n.lhsIdx i q 0).val = (i 0).val := by
  unfold DotDims.lhsIdx
  rw [dif_neg (show ¬(0 : Fin S8000x128.rank) ∈ dot_S8000x128_S128x64_S8000x64_1_0_0_1_n_n.lhsBatch by decide), dif_pos (show (0 : Fin S8000x128.rank) ∈ dot_S8000x128_S128x64_S8000x64_1_0_0_1_n_n.lhsNonContracting by decide)]
  rfl
theorem lhsY_1 (i : S8000x64.Idx) (q : dot_S8000x128_S128x64_S8000x64_1_0_0_1_n_n.contr.Idx) :
    (dot_S8000x128_S128x64_S8000x64_1_0_0_1_n_n.lhsIdx i q 1).val = (q ⟨0, by decide⟩).val :=
  dot_S8000x128_S128x64_S8000x64_1_0_0_1_n_n.lhsIdx_val_of_single rfl i q
theorem rhsY_0 (i : S8000x64.Idx) (q : dot_S8000x128_S128x64_S8000x64_1_0_0_1_n_n.contr.Idx) :
    (dot_S8000x128_S128x64_S8000x64_1_0_0_1_n_n.rhsIdx i q 0).val = (q ⟨0, by decide⟩).val :=
  dot_S8000x128_S128x64_S8000x64_1_0_0_1_n_n.rhsIdx_val_of_single rfl i q
theorem rhsY_1 (i : S8000x64.Idx) (q : dot_S8000x128_S128x64_S8000x64_1_0_0_1_n_n.contr.Idx) :
    (dot_S8000x128_S128x64_S8000x64_1_0_0_1_n_n.rhsIdx i q 1).val = (i 1).val := by
  unfold DotDims.rhsIdx
  rw [dif_neg (show ¬(1 : Fin S128x64.rank) ∈ dot_S8000x128_S128x64_S8000x64_1_0_0_1_n_n.rhsBatch by decide), dif_pos (show (1 : Fin S128x64.rank) ∈ dot_S8000x128_S128x64_S8000x64_1_0_0_1_n_n.rhsNonContracting by decide)]
  rfl

theorem lhsE_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhsE_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhsE_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhsE_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

theorem lhsH_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhsH_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem rhsH_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem rhsH_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The 8000×128 by 128×64 product into zero is the row-by-column product. -/
theorem matmulY_eq (l : Vec Ideal S8000x128 .f32) (r : Vec Ideal S128x64 .f32) :
    (matmul (φ₁ := .f32) (φ₂ := .f32) dot_S8000x128_S128x64_S8000x64_1_0_0_1_n_n none l r (constant (F := Ideal) S8000x64 .f32 0x00000000#32) : FVec Ideal S8000x64 .f32) = mm l r := by
  funext i
  refine (Ideal.matmul_constant_zero_apply _ none l r i).trans ?_
  rw [← Equiv.sum_comp (contrEquiv1 dot_S8000x128_S128x64_S8000x64_1_0_0_1_n_n 128 rfl rfl).symm]
  show _ = ∑ k : Fin 128, l (ix2 (i 0) k) * r (ix2 k (i 1))
  refine Finset.sum_congr rfl fun k _ => ?_
  have hk := contrEquiv1_symm_val dot_S8000x128_S128x64_S8000x64_1_0_0_1_n_n 128 rfl rfl k
  have el : dot_S8000x128_S128x64_S8000x64_1_0_0_1_n_n.lhsIdx i ((contrEquiv1 dot_S8000x128_S128x64_S8000x64_1_0_0_1_n_n 128 rfl rfl).symm k) = ix2 (i 0) k := funext fun a => Fin.ext (by
    match a with
    | ⟨0, _⟩ => exact lhsY_0 _ _
    | ⟨1, _⟩ => exact (lhsY_1 _ _).trans hk)
  have er : dot_S8000x128_S128x64_S8000x64_1_0_0_1_n_n.rhsIdx i ((contrEquiv1 dot_S8000x128_S128x64_S8000x64_1_0_0_1_n_n 128 rfl rfl).symm k) = ix2 k (i 1) := funext fun a => Fin.ext (by
    match a with
    | ⟨0, _⟩ => exact (rhsY_0 _ _).trans hk
    | ⟨1, _⟩ => exact rhsY_1 _ _)
  rw [el, er]
  rfl

/-- The 2000×256 by 256×128 product into zero is the row-by-column product. -/
theorem matmulE_eq (l : Vec Ideal S2000x256 .f32) (r : Vec Ideal S256x128 .f32) :
    (matmul (φ₁ := .f32) (φ₂ := .f32) dot_S2000x256_S256x128_S2000x128_1_0_0_1_n_n none l r (constant (F := Ideal) S2000x128 .f32 0x00000000#32) : FVec Ideal S2000x128 .f32) = mm l r := by
  funext i
  refine (Ideal.matmul_constant_zero_apply _ none l r i).trans ?_
  rw [← Equiv.sum_comp (contrEquiv1 dot_S2000x256_S256x128_S2000x128_1_0_0_1_n_n 256 rfl rfl).symm]
  show _ = ∑ k : Fin 256, l (ix2 (i 0) k) * r (ix2 k (i 1))
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx i ((contrEquiv1 dot_S2000x256_S256x128_S2000x128_1_0_0_1_n_n 256 rfl rfl).symm k) = ix2 (i 0) k := funext fun a => Fin.ext (by
    match a with
    | ⟨0, _⟩ => exact lhsE_0 _ _
    | ⟨1, _⟩ => exact (lhsE_1 _ _).trans hk)
  have er : dot_S2000x256_S256x128_S2000x128_1_0_0_1_n_n.rhsIdx i ((contrEquiv1 dot_S2000x256_S256x128_S2000x128_1_0_0_1_n_n 256 rfl rfl).symm k) = ix2 k (i 1) := funext fun a => Fin.ext (by
    match a with
    | ⟨0, _⟩ => exact (rhsE_0 _ _).trans hk
    | ⟨1, _⟩ => exact rhsE_1 _ _)
  rw [el, er]
  rfl

/-- The 2000×128 by 128×64 product into zero is the row-by-column product. -/
theorem matmulH_eq (l : Vec Ideal S2000x128 .f32) (r : Vec Ideal S128x64 .f32) :
    (matmul (φ₁ := .f32) (φ₂ := .f32) dot_S2000x128_S128x64_S2000x64_1_0_0_1_n_n none l r (constant (F := Ideal) S2000x64 .f32 0x00000000#32) : FVec Ideal S2000x64 .f32) = mm l r := by
  funext i
  refine (Ideal.matmul_constant_zero_apply _ none l r i).trans ?_
  rw [← Equiv.sum_comp (contrEquiv1 dot_S2000x128_S128x64_S2000x64_1_0_0_1_n_n 128 rfl rfl).symm]
  show _ = ∑ k : Fin 128, l (ix2 (i 0) k) * r (ix2 k (i 1))
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx i ((contrEquiv1 dot_S2000x128_S128x64_S2000x64_1_0_0_1_n_n 128 rfl rfl).symm k) = ix2 (i 0) k := funext fun a => Fin.ext (by
    match a with
    | ⟨0, _⟩ => exact lhsH_0 _ _
    | ⟨1, _⟩ => exact (lhsH_1 _ _).trans hk)
  have er : dot_S2000x128_S128x64_S2000x64_1_0_0_1_n_n.rhsIdx i ((contrEquiv1 dot_S2000x128_S128x64_S2000x64_1_0_0_1_n_n 128 rfl rfl).symm k) = ix2 k (i 1) := funext fun a => Fin.ext (by
    match a with
    | ⟨0, _⟩ => exact (rhsH_0 _ _).trans hk
    | ⟨1, _⟩ => exact rhsH_1 _ _)
  rw [el, er]
  rfl

/-- The one-row array broadcast over 2000 rows and added is `addRow`. -/
theorem addf_broadcast_eq (X : Vec Ideal S2000x128 .f32) (v : Vec Ideal S1x128 .f32) :
    (addf X (broadcastTo S2000x128 v broadcasts_S1x128_S2000x128) : FVec Ideal S2000x128 .f32) = addRow X v := by
  funext i
  obtain ⟨p, q, rfl⟩ : ∃ (p : Fin 2000) (q : Fin 128), i = ix2 p q := ⟨i 0, i 1, eq_ix2 i⟩
  rw [addf_apply, broadcastTo_1b_ab_apply]
  rfl

/-- The first stored value: the given rows times W₁. -/
theorem pay1_eq (v0 : Vec Ideal S128x64 .f32) (v1 : Vec Ideal S8000x128 .f32) :
    k0_pay1 (F := Ideal) v0 v1 = mm v1 v0 := by
  unfold k0_pay1
  exact matmulY_eq v1 v0

/-- The second stored value: the embedded rows, mapped by the affine layer, times W₁. -/
theorem pay2_eq (v0 : Vec Ideal S128x64 .f32) (v4 : Vec Ideal S2000x256 .f32) (v5 : Vec Ideal S256x128 .f32)
    (v8 : Vec Ideal S1x128 .f32) :
    k0_pay2 (F := Ideal) v0 v4 v5 v8 = mm (addRow (mm v4 v5) v8) v0 := by
  unfold k0_pay2
  dsimp only
  rw [shapeCast_self, shapeCast_self, matmulE_eq, addf_broadcast_eq, matmulH_eq]

/-! ## What the body leaves in its output buffer

The body stores twice into its 10000×64 output: the first product at rows 0 … 7999, the second at rows 8000 … 9999.
Each stored value is the block, at its store's rows, of ONE function of the buffer's index: the stack of the two
products. The two row ranges tile the buffer, so the buffer ends holding that stack. -/

theorem zero_offsets : (![0, 0] : Fin 2 → Nat) = fun _ => 0 := funext fun a => by fin_cases a <;> rfl

/-- The stack of an 8000-row array above a 2000-row one reads the upper array at a row below 8000 … -/
theorem stack_upper (A : Mat 8000 64) (B : Mat 2000 64) (i : S10000x64.Idx) (x : S8000x64.Idx)
    (h0 : (i 0).val = (x 0).val) (h1 : (i 1).val = (x 1).val) : (stack A B : Mat 10000 64) i = A x := by
  have hx : (x 0).val < 8000 := (x 0).isLt
  unfold stack
  rw [dif_pos (show (i 0).val < 8000 by omega)]
  refine congrArg A (funext fun a => Fin.ext ?_)
  match a with
  | ⟨0, _⟩ => exact h0
  | ⟨1, _⟩ => exact h1

/-- … and the lower array, at the row less 8000, from row 8000 on. -/
theorem stack_lower (A : Mat 8000 64) (B : Mat 2000 64) (i : S10000x64.Idx) (x : S2000x64.Idx)
    (h0 : (i 0).val = 8000 + (x 0).val) (h1 : (i 1).val = (x 1).val) : (stack A B : Mat 10000 64) i = B x := by
  have hx : (x 0).val < 2000 := (x 0).isLt
  unfold stack
  rw [dif_neg (show ¬(i 0).val < 8000 by omega), dif_pos (show (i 0).val - 8000 < 2000 by omega)]
  refine congrArg B (funext fun a => Fin.ext ?_)
  match a with
  | ⟨0, _⟩ => show (i 0).val - 8000 = (x 0).val; omega
  | ⟨1, _⟩ => exact h1

/-- The region's output as a function of the five arrays its body loads: the given rows times W₁ above the mapped
    embedded rows times W₁. -/
abbrev projStack (x0 : Vec Ideal S2000x256 .f32) (x1 : Vec Ideal S8000x128 .f32) (x2 : Vec Ideal S256x128 .f32)
    (x3 : Vec Ideal S1x128 .f32) (x4 : Vec Ideal S128x64 .f32) : Vec Ideal S10000x64 .f32 :=
  (stack (mm x1 x4) (mm (addRow (mm x0 x2) x3) x4) : Mat 10000 64)

/-- The two stores' pieces, the later store first: rows 8000 … 9999 at the mapped rows' product, rows 0 … 7999 at the
    given rows' product, of the contents of the five input buffers. -/
theorem pieces_eq (c : Dev nD) (arg0 : Memref sig .tc .vmem S2000x256 .f32) (harg0 : arg0.IsWhole) (arg1 : Memref sig .tc .vmem S8000x128 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S10000x64 .f32) (harg5 : arg5.IsWhole)
    (x0 : Vec Ideal S2000x256 .f32) (x1 : Vec Ideal S8000x128 .f32) (x2 : Vec Ideal S256x128 .f32) (x3 : Vec Ideal S1x128 .f32) (x4 : Vec Ideal S128x64 .f32) :
    (kernelRun0_A (F := Ideal) c arg0 harg0 arg1 harg1 arg2 harg2 arg3 harg3 arg4 harg4 arg5 harg5 x0 x1 x2 x3 x4).1
      = [(⟨Rect.unit (s := S10000x64) ![8000, 0] S2000x64.size inb_S10000x64_S2000x64_8000_0, mm (addRow (mm x0 x2) x3) x4⟩ : View.Piece (Elt Ideal) S10000x64 .f32),
         ⟨Rect.unit (s := S10000x64) ![0, 0] S8000x64.size inb_S10000x64_S8000x64_0_0, mm x1 x4⟩] := by
  unfold kernelRun0_A; dsimp only; sl_unfold_words
  simp only [View.readAt_eq_ld, harg0.read_unread, harg1.read_unread, harg2.read_unread, harg3.read_unread, harg4.read_unread,
    View.ld_unit_zero (S := S2000x256) zero_offsets, View.ld_unit_zero (S := S8000x128) zero_offsets,
    View.ld_unit_zero (S := S256x128) zero_offsets, View.ld_unit_zero (S := S1x128) zero_offsets,
    View.ld_unit_zero (S := S128x64) zero_offsets]
  rw [pay1_eq, pay2_eq]

/-- After the body the output buffer holds the stack of the two products. -/
theorem out_eq (c : Dev nD) (arg0 : Memref sig .tc .vmem S2000x256 .f32) (harg0 : arg0.IsWhole) (arg1 : Memref sig .tc .vmem S8000x128 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S10000x64 .f32) (harg5 : arg5.IsWhole)
    (x0 : Vec Ideal S2000x256 .f32) (x1 : Vec Ideal S8000x128 .f32) (x2 : Vec Ideal S256x128 .f32) (x3 : Vec Ideal S1x128 .f32) (x4 : Vec Ideal S128x64 .f32) :
    out0_A_5 (F := Ideal) c arg0 harg0 arg1 harg1 arg2 harg2 arg3 harg3 arg4 harg4 arg5 harg5 x0 x1 x2 x3 x4 = projStack x0 x1 x2 x3 x4 := by
  funext y
  have hc := cover0_A_5 (F := Ideal) c arg0 harg0 arg1 harg1 arg2 harg2 arg3 harg3 arg4 harg4 arg5 harg5 x0 x1 x2 x3 x4 y
  unfold out0_A_5
  rw [View.read_writes_eq_canon _ _ _ (cover0_A_5 (F := Ideal) c arg0 harg0 arg1 harg1 arg2 harg2 arg3 harg3 arg4 harg4 arg5 harg5 x0 x1 x2 x3 x4)]
  rw [pieces_eq] at hc ⊢
  refine View.canon_apply_of_pieces (projStack x0 x1 x2 x3 x4) _ (fun p hp => ?_) y hc
  simp only [List.mem_cons, List.mem_singleton, List.not_mem_nil, or_false] at hp
  rcases hp with rfl | rfl
  · intro x
    exact (stack_lower _ _ _ x (by show 8000 + 1 * (x 0).val = _; omega) (by show 0 + 1 * (x 1).val = _; omega)).symm
  · intro x
    exact (stack_upper _ _ _ x (by show 0 + 1 * (x 0).val = _; omega) (by show 0 + 1 * (x 1).val = _; omega)).symm

-- the TensorCore's buffer contents when the region is entered
variable (V : (c : Dev nD) → (b : Ref sig .tc) → Buf (Elt Ideal) ((c : Thread nD τ).loc b))

/-! ## From the one write-back to the array

The region has no grid: every window's block index is zero and its block is its whole array, so an element's coordinate
in the array is its coordinate in the block. The five input blocks are therefore the five arrays the region was entered
with, and the one write-back of the output's block, which holds the stack, covers the output array. -/

theorem blk0_eq (c : Dev nD) (t : Fin cfg0.N) : (iblk0 V c 0 t : Vec Ideal S2000x256 .f32) = V c main_arg0 := by
  funext y
  show V c main_arg0 (((cfg0.win 0).blk t).view.emb y) = V c main_arg0 y
  refine congrArg (V c main_arg0) (funext fun a => Fin.ext ?_)
  match a with
  | ⟨0, _⟩ => show win0_0.index t (0 : Fin 2) * 2000 + 1 * (y 0).val = (y 0).val; show 0 * 2000 + 1 * (y 0).val = (y 0).val; omega
  | ⟨1, _⟩ => show win0_0.index t (1 : Fin 2) * 256 + 1 * (y 1).val = (y 1).val; show 0 * 256 + 1 * (y 1).val = (y 1).val; omega

theorem blk1_eq (c : Dev nD) (t : Fin cfg0.N) : (iblk0 V c 1 t : Vec Ideal S8000x128 .f32) = V c main_arg1 := by
  funext y
  show V c main_arg1 (((cfg0.win 1).blk t).view.emb y) = V c main_arg1 y
  refine congrArg (V c main_arg1) (funext fun a => Fin.ext ?_)
  match a with
  | ⟨0, _⟩ => show win0_1.index t (0 : Fin 2) * 8000 + 1 * (y 0).val = (y 0).val; show 0 * 8000 + 1 * (y 0).val = (y 0).val; omega
  | ⟨1, _⟩ => show win0_1.index t (1 : Fin 2) * 128 + 1 * (y 1).val = (y 1).val; show 0 * 128 + 1 * (y 1).val = (y 1).val; omega

theorem blk2_eq (c : Dev nD) (t : Fin cfg0.N) : (iblk0 V c 2 t : Vec Ideal S256x128 .f32) = V c main_v0 := by
  funext y
  show V c main_v0 (((cfg0.win 2).blk t).view.emb y) = V c main_v0 y
  refine congrArg (V c main_v0) (funext fun a => Fin.ext ?_)
  match a with
  | ⟨0, _⟩ => show win0_2.index t (0 : Fin 2) * 256 + 1 * (y 0).val = (y 0).val; show 0 * 256 + 1 * (y 0).val = (y 0).val; omega
  | ⟨1, _⟩ => show win0_2.index t (1 : Fin 2) * 128 + 1 * (y 1).val = (y 1).val; show 0 * 128 + 1 * (y 1).val = (y 1).val; omega

theorem blk3_eq (c : Dev nD) (t : Fin cfg0.N) : (iblk0 V c 3 t : Vec Ideal S1x128 .f32) = V c main_v1 := by
  funext y
  show V c main_v1 (((cfg0.win 3).blk t).view.emb y) = V c main_v1 y
  refine congrArg (V c main_v1) (funext fun a => Fin.ext ?_)
  match a with
  | ⟨0, _⟩ => show win0_3.index t (0 : Fin 2) * 1 + 1 * (y 0).val = (y 0).val; show 0 * 1 + 1 * (y 0).val = (y 0).val; omega
  | ⟨1, _⟩ => show win0_3.index t (1 : Fin 2) * 128 + 1 * (y 1).val = (y 1).val; show 0 * 128 + 1 * (y 1).val = (y 1).val; omega

theorem blk4_eq (c : Dev nD) (t : Fin cfg0.N) : (iblk0 V c 4 t : Vec Ideal S128x64 .f32) = V c main_arg6 := by
  funext y
  show V c main_arg6 (((cfg0.win 4).blk t).view.emb y) = V c main_arg6 y
  refine congrArg (V c main_arg6) (funext fun a => Fin.ext ?_)
  match a with
  | ⟨0, _⟩ => show win0_4.index t (0 : Fin 2) * 128 + 1 * (y 0).val = (y 0).val; show 0 * 128 + 1 * (y 0).val = (y 0).val; omega
  | ⟨1, _⟩ => show win0_4.index t (1 : Fin 2) * 64 + 1 * (y 1).val = (y 1).val; show 0 * 64 + 1 * (y 1).val = (y 1).val; omega

/-- What the one point writes back is the stack of the two products of the arrays the region was entered with, read
    through the output's block. -/
theorem flushed_eq (c : Dev nD) (t : Fin cfg0.N) :
    (dat0 V c).flushed 5 t = ((cfg0.win 5).blk t).view.read (Elt Ideal)
      (projStack (V c main_arg0) (V c main_arg1) (V c main_v0) (V c main_v1) (V c main_arg6)) := by
  show (cfg0.win 5).cut (grid0.coords t) ((dat0 V c).after 5 t) = _
  rw [after0_5]
  unfold outsAt0
  refine (congrArg ((cfg0.win 5).cut (grid0.coords t)) (out_eq c (ms0_0 t) (hs0_0 t) (ms0_1 t) (hs0_1 t) (ms0_2 t) (hs0_2 t)
    (ms0_3 t) (hs0_3 t) (ms0_4 t) (hs0_4 t) (ms0_5 t) (hs0_5 t) (iblk0 V c 0 t) (iblk0 V c 1 t) (iblk0 V c 2 t) (iblk0 V c 3 t)
    (iblk0 V c 4 t))).trans ?_
  rw [blk0_eq V c t, blk1_eq V c t, blk2_eq V c t, blk3_eq V c t, blk4_eq V c t]
  funext j
  show projStack (V c main_arg0) (V c main_arg1) (V c main_v0) (V c main_v1) (V c main_arg6) ((cfg0.win 5).xinj (grid0.coords t) j)
    = projStack (V c main_arg0) (V c main_arg1) (V c main_v0) (V c main_v1) (V c main_arg6) (((cfg0.win 5).blk t).view.emb j)
  refine congrArg _ (funext fun a => Fin.ext ?_)
  match a with
  | ⟨0, _⟩ => show (j 0).val = win0_5.index t (0 : Fin 2) * 10000 + 1 * (j 0).val; show (j 0).val = 0 * 10000 + 1 * (j 0).val; omega
  | ⟨1, _⟩ => show (j 1).val = win0_5.index t (1 : Fin 2) * 64 + 1 * (j 1).val; show (j 1).val = 0 * 64 + 1 * (j 1).val; omega

/-- An index of the output array is in the point's block iff each coordinate is in the block's range on its axis. -/
theorem mem_blk (t : Fin cfg0.N) (i : S10000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v4).slice (win0_5.rect t)).set ↔ _
  rw [View.set_slice_whole, Rect.mem_set_unit]
  exact Iff.rfl

/-- After region 0 its output array holds (Y · W₁) stacked above ((Xe · Wt + b) · W₁), of the arrays it was entered with. -/
theorem region0_value (c : Dev nD) :
    (dat0 V c).arrAt 5 cfg0.N
      = (stack (mm (V c main_arg1) (V c main_arg6)) (mm (addRow (mm (V c main_arg0) (V c main_v0)) (V c main_v1)) (V c main_arg6)) : Mat 10000 64) := by
  refine (dat0 V c).arrAt_eq_of_cover 5
    (projStack (V c main_arg0) (V c main_arg1) (V c main_v0) (V c main_v1) (V c main_arg6))
    (fun t _ => flushed_eq V c t) (fun i => ⟨t0_0, flush0_5 t0_0, ?_⟩)
  rw [mem_blk]
  intro a
  match a with
  | ⟨0, _⟩ => show 0 * 10000 ≤ (i 0).val ∧ (i 0).val < 0 * 10000 + 10000; have h : (i 0).val < 10000 := (i 0).isLt; omega
  | ⟨1, _⟩ => show 0 * 64 ≤ (i 1).val ∧ (i 1).val < 0 * 64 + 64; have h : (i 1).val < 64 := (i 1).isLt; omega

end Cert.KernelIdeal.Region0

end
-- ==== Proof.Region1.lean ====
/-
  The second region's two result arrays. Grid point t holds rows 400·t … 400·t + 399 of the adjacency F and the
  whole of S₁; its body writes relu (F_block · S₁ + b₁) into block t of the first output and that block times W₂ into
  block t of the second. The 25 blocks tile the 10000 rows, so each output array is one function of the inputs.
-/
import proofs.«106104_g84250078479002_cont_sun_c4_284_3_alg».proof.Proof.Gen.KernelIdeal.Frame
import proofs.«106104_g84250078479002_cont_sun_c4_284_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.GcnHead

/-! ## The body's arithmetic at an index

The body multiplies a 400 × 10000 block of rows by the whole 10000 × 64 array, adds the one-row bias to every row and
clips at zero; it then multiplies that 400 × 64 block by the 64 × 40 array. Each product's entry is the sum over the one
contracted axis of the row's entry times the column's. -/

/-- The first product's left operand is read at (row of the output, contracted coordinate). -/
theorem lhsA_0 (i : S400x64.Idx) (q : dot_S400x10000_S10000x64_S400x64_1_0_0_1_n_n.contr.Idx) :
    (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
theorem lhsA_1 (i : S400x64.Idx) (q : dot_S400x10000_S10000x64_S400x64_1_0_0_1_n_n.contr.Idx) :
    (dot_S400x10000_S10000x64_S400x64_1_0_0_1_n_n.lhsIdx i q 1).val = (q ⟨0, by decide⟩).val :=
  dot_S400x10000_S10000x64_S400x64_1_0_0_1_n_n.lhsIdx_val_of_single rfl i q
/-- Its right operand is read at (contracted coordinate, column of the output). -/
theorem rhsA_0 (i : S400x64.Idx) (q : dot_S400x10000_S10000x64_S400x64_1_0_0_1_n_n.contr.Idx) :
    (dot_S400x10000_S10000x64_S400x64_1_0_0_1_n_n.rhsIdx i q 0).val = (q ⟨0, by decide⟩).val :=
  dot_S400x10000_S10000x64_S400x64_1_0_0_1_n_n.rhsIdx_val_of_single rfl i q
theorem rhsA_1 (i : S400x64.Idx) (q : dot_S400x10000_S10000x64_S400x64_1_0_0_1_n_n.contr.Idx) :
    (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl

/-- The block product into a zero accumulator: entry (p, j) is ∑ₖ x(p, k) · y(k, j). -/
theorem blockProduct_apply (x : FVec Ideal S400x10000 .bf16) (y : FVec Ideal S10000x64 .bf16) (p : Fin 400) (j : Fin 64) :
    matmul dot_S400x10000_S10000x64_S400x64_1_0_0_1_n_n none x y (constant (F := Ideal) S400x64 .f32 0x00000000#32) (ix2 p j)
      = ∑ k : Fin 10000, x (ix2 p k) * y (ix2 k j) := by
  simp only [matmul]
  rw [Ideal.matmul_constant_zero_apply, ← Equiv.sum_comp (ValueIdx.contrEquiv1 dot_S400x10000_S10000x64_S400x64_1_0_0_1_n_n 10000 rfl rfl).symm]
  refine Finset.sum_congr rfl fun k _ => ?_
  have hk := ValueIdx.contrEquiv1_symm_val dot_S400x10000_S10000x64_S400x64_1_0_0_1_n_n 10000 rfl rfl k
  have el : dot_S400x10000_S10000x64_S400x64_1_0_0_1_n_n.lhsIdx (ix2 p j) ((ValueIdx.contrEquiv1 dot_S400x10000_S10000x64_S400x64_1_0_0_1_n_n 10000 rfl rfl).symm k) = ix2 p k := funext fun a => Fin.ext (by
    match a with
    | ⟨0, _⟩ => exact lhsA_0 _ _
    | ⟨1, _⟩ => exact (lhsA_1 _ _).trans hk)
  have er : dot_S400x10000_S10000x64_S400x64_1_0_0_1_n_n.rhsIdx (ix2 p j) ((ValueIdx.contrEquiv1 dot_S400x10000_S10000x64_S400x64_1_0_0_1_n_n 10000 rfl rfl).symm k) = ix2 k j := funext fun a => Fin.ext (by
    match a with
    | ⟨0, _⟩ => exact (rhsA_0 _ _).trans hk
    | ⟨1, _⟩ => exact rhsA_1 _ _)
  rw [el, er]

/-- The second product's left operand is read at (row of the output, contracted coordinate). -/
theorem lhsB_0 (i : S400x40.Idx) (q : dot_S400x64_S64x40_S400x40_1_0_0_1_n_n.contr.Idx) :
    (dot_S400x64_S64x40_S400x40_1_0_0_1_n_n.lhsIdx i q 0).val = (i 0).val := by
  unfold DotDims.lhsIdx
  rw [dif_neg (show ¬(0 : Fin S400x64.rank) ∈ dot_S400x64_S64x40_S400x40_1_0_0_1_n_n.lhsBatch by decide), dif_pos (show (0 : Fin S400x64.rank) ∈ dot_S400x64_S64x40_S400x40_1_0_0_1_n_n.lhsNonContracting by decide)]
  rfl
theorem lhsB_1 (i : S400x40.Idx) (q : dot_S400x64_S64x40_S400x40_1_0_0_1_n_n.contr.Idx) :
    (dot_S400x64_S64x40_S400x40_1_0_0_1_n_n.lhsIdx i q 1).val = (q ⟨0, by decide⟩).val :=
  dot_S400x64_S64x40_S400x40_1_0_0_1_n_n.lhsIdx_val_of_single rfl i q
/-- Its right operand is read at (contracted coordinate, column of the output). -/
theorem rhsB_0 (i : S400x40.Idx) (q : dot_S400x64_S64x40_S400x40_1_0_0_1_n_n.contr.Idx) :
    (dot_S400x64_S64x40_S400x40_1_0_0_1_n_n.rhsIdx i q 0).val = (q ⟨0, by decide⟩).val :=
  dot_S400x64_S64x40_S400x40_1_0_0_1_n_n.rhsIdx_val_of_single rfl i q
theorem rhsB_1 (i : S400x40.Idx) (q : dot_S400x64_S64x40_S400x40_1_0_0_1_n_n.contr.Idx) :
    (dot_S400x64_S64x40_S400x40_1_0_0_1_n_n.rhsIdx i q 1).val = (i 1).val := by
  unfold DotDims.rhsIdx
  rw [dif_neg (show ¬(1 : Fin S64x40.rank) ∈ dot_S400x64_S64x40_S400x40_1_0_0_1_n_n.rhsBatch by decide), dif_pos (show (1 : Fin S64x40.rank) ∈ dot_S400x64_S64x40_S400x40_1_0_0_1_n_n.rhsNonContracting by decide)]
  rfl

/-- The second block product into a zero accumulator: entry (p, j) is ∑ₖ x(p, k) · y(k, j). -/
theorem blockProduct2_apply (x : FVec Ideal S400x64 .f32) (y : FVec Ideal S64x40 .f32) (p : Fin 400) (j : Fin 40) :
    matmul dot_S400x64_S64x40_S400x40_1_0_0_1_n_n none x y (constant (F := Ideal) S400x40 .f32 0x00000000#32) (ix2 p j)
      = ∑ k : Fin 64, x (ix2 p k) * y (ix2 k j) := by
  simp only [matmul]
  rw [Ideal.matmul_constant_zero_apply, ← Equiv.sum_comp (ValueIdx.contrEquiv1 dot_S400x64_S64x40_S400x40_1_0_0_1_n_n 64 rfl rfl).symm]
  refine Finset.sum_congr rfl fun k _ => ?_
  have hk := ValueIdx.contrEquiv1_symm_val dot_S400x64_S64x40_S400x40_1_0_0_1_n_n 64 rfl rfl k
  have el : dot_S400x64_S64x40_S400x40_1_0_0_1_n_n.lhsIdx (ix2 p j) ((ValueIdx.contrEquiv1 dot_S400x64_S64x40_S400x40_1_0_0_1_n_n 64 rfl rfl).symm k) = ix2 p k := funext fun a => Fin.ext (by
    match a with
    | ⟨0, _⟩ => exact lhsB_0 _ _
    | ⟨1, _⟩ => exact (lhsB_1 _ _).trans hk)
  have er : dot_S400x64_S64x40_S400x40_1_0_0_1_n_n.rhsIdx (ix2 p j) ((ValueIdx.contrEquiv1 dot_S400x64_S64x40_S400x40_1_0_0_1_n_n 64 rfl rfl).symm k) = ix2 k j := funext fun a => Fin.ext (by
    match a with
    | ⟨0, _⟩ => exact (rhsB_0 _ _).trans hk
    | ⟨1, _⟩ => exact rhsB_1 _ _)
  rw [el, er]

/-- The first output block at (p, j): max (∑ₖ x₀(p, k) · x₁(k, j) + x₂(0, j)) 0. -/
theorem clippedBlock_apply (x0 : Vec Ideal S400x10000 .f32) (x1 : Vec Ideal S10000x64 .f32) (x2 : Vec Ideal S1x64 .f32)
    (p : Fin 400) (j : Fin 64) :
    k1_pay1 (F := Ideal) x0 x1 x2 (ix2 p j)
      = max ((∑ k : Fin 10000, x0 (ix2 p k) * x1 (ix2 k j)) + x2 (ix2 (0 : Fin 1) j)) 0 := by
  unfold k1_pay1
  rw [maximumf_apply, addf_apply, broadcast_apply, shapeCast_self, shapeCast_self, blockProduct_apply,
    broadcastTo_1b_ab_apply]
  simp only [truncf_apply]
  rw [show (Scalar.ofBits .f32 0x00000000#32 : Ideal .f32) = 0 from Ideal.ofBits_zero_f32]

/-- The second output block at (p, j): ∑ₖ (first block)(p, k) · x₃(k, j). -/
theorem projectedBlock_apply (x0 : Vec Ideal S400x10000 .f32) (x1 : Vec Ideal S10000x64 .f32) (x2 : Vec Ideal S1x64 .f32)
    (x3 : Vec Ideal S64x40 .f32) (p : Fin 400) (j : Fin 40) :
    k1_pay2 (F := Ideal) x0 x1 x2 x3 (ix2 p j)
      = ∑ k : Fin 64, k1_pay1 (F := Ideal) x0 x1 x2 (ix2 p k) * x3 (ix2 k j) := by
  unfold k1_pay2
  exact blockProduct2_apply _ _ p j

/-! ## The index maps over the grid

Point t's block of the adjacency and of each output is block row t (rows 400·t … 400·t + 399, every column); the other
three inputs are whole arrays, block (0, 0), at every point. -/

theorem zeroOffsets : (![0, 0] : Fin 2 → Nat) = fun _ => 0 := funext fun a => by fin_cases a <;> rfl

theorem blockIndices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-! ## Each input block as entries of its array -/

-- the TensorCore's buffer contents when the region is entered
variable (V : (c : Dev nD) → (b : Ref sig .tc) → Buf (Elt Ideal) ((c : Thread nD τ).loc b))

/-- Row p of point t's adjacency block is row 400·t + p of the adjacency. -/
theorem adjacencyBlock_apply (c : Dev nD) (t : Fin cfg1.N) (p : Fin 400) (k : Fin 10000) (r : Fin 10000)
    (hr : r.val = 400 * t.val + p.val) :
    (iblk1 V c 0 t : Vec Ideal S400x10000 .f32) (ix2 p k) = (V c main_arg2 : Mat 10000 10000) (ix2 r k) := by
  obtain ⟨e0, e1, -⟩ := blockIndices t
  show V c main_arg2 (((cfg1.win 0).blk t).view.emb (ix2 p k)) = V c main_arg2 (ix2 r k)
  congr 1
  funext a; apply Fin.ext
  match a with
  | ⟨0, _⟩ => show win1_0.index t (0 : Fin 2) * 400 + 1 * p.val = r.val; omega
  | ⟨1, _⟩ => show win1_0.index t (1 : Fin 2) * 10000 + 1 * k.val = k.val; omega

/-- Point t's block of the projected stack is the whole array. -/
theorem stackBlock_eq (c : Dev nD) (t : Fin cfg1.N) :
    (iblk1 V c 1 t : Vec Ideal S10000x64 .f32) = (V c main_v4 : Mat 10000 64) := by
  obtain ⟨-, -, e0, e1, -⟩ := blockIndices t
  funext x
  show V c main_v4 (((cfg1.win 1).blk t).view.emb x) = V c main_v4 x
  congr 1
  funext a; apply Fin.ext
  match a with
  | ⟨0, _⟩ => show win1_1.index t (0 : Fin 2) * 10000 + 1 * (x 0).val = (x 0).val; omega
  | ⟨1, _⟩ => show win1_1.index t (1 : Fin 2) * 64 + 1 * (x 1).val = (x 1).val; omega

/-- Point t's block of the bias row is the whole row. -/
theorem biasBlock_eq (c : Dev nD) (t : Fin cfg1.N) :
    (iblk1 V c 2 t : Vec Ideal S1x64 .f32) = (V c main_v2 : Mat 1 64) := by
  obtain ⟨-, -, -, -, e0, e1, -⟩ := blockIndices t
  funext x
  show V c main_v2 (((cfg1.win 2).blk t).view.emb x) = V c main_v2 x
  congr 1
  funext a; apply Fin.ext
  match a with
  | ⟨0, _⟩ => show win1_2.index t (0 : Fin 2) * 1 + 1 * (x 0).val = (x 0).val; omega
  | ⟨1, _⟩ => show win1_2.index t (1 : Fin 2) * 64 + 1 * (x 1).val = (x 1).val; omega

/-- Point t's block of the second weight array is the whole array. -/
theorem weightBlock_eq (c : Dev nD) (t : Fin cfg1.N) :
    (iblk1 V c 3 t : Vec Ideal S64x40 .f32) = (V c main_arg8 : Mat 64 40) := by
  obtain ⟨-, -, -, -, -, -, e0, e1, -⟩ := blockIndices t
  funext x
  show V c main_arg8 (((cfg1.win 3).blk t).view.emb x) = V c main_arg8 x
  congr 1
  funext a; apply Fin.ext
  match a with
  | ⟨0, _⟩ => show win1_3.index t (0 : Fin 2) * 64 + 1 * (x 0).val = (x 0).val; omega
  | ⟨1, _⟩ => show win1_3.index t (1 : Fin 2) * 40 + 1 * (x 1).val = (x 1).val; omega

/-! ## What a point writes, as entries of the whole-array functions -/

/-- Entry (r, j) of relu (A · S + b). -/
theorem clippedAffine_apply (A : Mat 10000 10000) (S : Mat 10000 64) (b : Mat 1 64) (r : Fin 10000) (j : Fin 64) :
    (relu (addRow (mm A S) b) : Mat 10000 64) (ix2 r j)
      = max ((∑ q : Fin 10000, A (ix2 r q) * S (ix2 q j)) + b (ix2 (0 : Fin 1) j)) 0 := rfl

/-- Entry (r, j) of Y · W. -/
theorem projected_apply (Y : Mat 10000 64) (W : Mat 64 40) (r : Fin 10000) (j : Fin 40) :
    (mm Y W : Mat 10000 40) (ix2 r j) = ∑ q : Fin 64, Y (ix2 r q) * W (ix2 q j) := rfl

/-- Entry (p, j) of what point t leaves in the first output's buffer is entry (400·t + p, j) of relu (F · S₁ + b₁):
    the block's row p is the adjacency's row 400·t + p, and S₁ and b₁ are read whole. -/
theorem clippedBlock_eq (c : Dev nD) (t : Fin cfg1.N) (p : Fin 400) (j : Fin 64) (r : Fin 10000)
    (hr : r.val = 400 * t.val + p.val) :
    k1_pay1 (F := Ideal) (iblk1 V c 0 t) (iblk1 V c 1 t) (iblk1 V c 2 t) (ix2 p j)
      = (relu (addRow (mm (V c main_arg2) (V c main_v4)) (V c main_v2)) : Mat 10000 64) (ix2 r j) := by
  refine (clippedBlock_apply (iblk1 V c 0 t) (iblk1 V c 1 t) (iblk1 V c 2 t) p j).trans
    (Eq.trans ?_ (clippedAffine_apply (V c main_arg2) (V c main_v4) (V c main_v2) r j).symm)
  refine congrArg (fun z : EReal => max z 0) (congrArg₂ (fun a b : EReal => a + b)
    (Finset.sum_congr rfl fun k _ => congrArg₂ (fun a b : EReal => a * b) ?_ ?_) ?_)
  · exact adjacencyBlock_apply V c t p k r hr
  · exact congrFun (stackBlock_eq V c t) (ix2 k j)
  · exact congrFun (biasBlock_eq V c t) (ix2 (0 : Fin 1) j)

/-- Entry (p, j) of what point t leaves in the second output's buffer is entry (400·t + p, j) of
    (relu (F · S₁ + b₁)) · W₂: the first block's row p times W₂, read whole. -/
theorem projectedBlock_eq (c : Dev nD) (t : Fin cfg1.N) (p : Fin 400) (j : Fin 40) (r : Fin 10000)
    (hr : r.val = 400 * t.val + p.val) :
    k1_pay2 (F := Ideal) (iblk1 V c 0 t) (iblk1 V c 1 t) (iblk1 V c 2 t) (iblk1 V c 3 t) (ix2 p j)
      = (mm (relu (addRow (mm (V c main_arg2) (V c main_v4)) (V c main_v2))) (V c main_arg8) : Mat 10000 40) (ix2 r j) := by
  refine (projectedBlock_apply (iblk1 V c 0 t) (iblk1 V c 1 t) (iblk1 V c 2 t) (iblk1 V c 3 t) p j).trans
    (Eq.trans ?_ (projected_apply (relu (addRow (mm (V c main_arg2) (V c main_v4)) (V c main_v2))) (V c main_arg8) r j).symm)
  refine Finset.sum_congr rfl fun k _ => congrArg₂ (fun a b : EReal => a * b) ?_ ?_
  · exact clippedBlock_eq V c t p k r hr
  · exact congrFun (weightBlock_eq V c t) (ix2 k j)

/-! ## What a point writes back is its block of the whole-array function -/

theorem flushedYemb (c : Dev nD) (t : Fin cfg1.N) :
    (dat1 V c).flushed 4 t
      = ((cfg1.win 4).blk t).view.read (Elt Ideal)
          (relu (addRow (mm (V c main_arg2) (V c main_v4)) (V c main_v2)) : Mat 10000 64) := by
  show (cfg1.win 4).cut (grid1.coords t) ((dat1 V c).after 4 t) = _
  rw [after1_4]
  unfold out1_4
  rw [View.canon_unit_zero zeroOffsets]
  simp only [View.ld_unit_zero (S := S400x10000) zeroOffsets, View.ld_unit_zero (S := S10000x64) zeroOffsets,
    View.ld_unit_zero (S := S1x64) zeroOffsets]
  have ht : t.val < 25 := lt_of_lt_of_eq t.isLt N_1
  obtain ⟨-, -, -, -, -, -, -, -, e0, e1, -⟩ := blockIndices t
  refine funext fun (y : S400x64.Idx) => ?_
  obtain ⟨p, j, rfl⟩ : ∃ (p : Fin 400) (j : Fin 64), y = ix2 p j := ⟨y 0, y 1, eq_ix2 y⟩
  show k1_pay1 (F := Ideal) (iblk1 V c 0 t) (iblk1 V c 1 t) (iblk1 V c 2 t) (ix2 p j)
    = (relu (addRow (mm (V c main_arg2) (V c main_v4)) (V c main_v2)) : Mat 10000 64) (((cfg1.win 4).blk t).view.emb (ix2 p j))
  have hemb : ((cfg1.win 4).blk t).view.emb (ix2 p j)
      = (ix2 (⟨400 * t.val + p.val, by omega⟩ : Fin 10000) j : S10000x64.Idx) := by
    funext a; apply Fin.ext
    match a with
    | ⟨0, _⟩ => show win1_4.index t (0 : Fin 2) * 400 + 1 * p.val = 400 * t.val + p.val; omega
    | ⟨1, _⟩ => show win1_4.index t (1 : Fin 2) * 64 + 1 * j.val = j.val; omega
  rw [hemb]
  exact clippedBlock_eq V c t p j _ rfl

theorem flushedS2 (c : Dev nD) (t : Fin cfg1.N) :
    (dat1 V c).flushed 5 t
      = ((cfg1.win 5).blk t).view.read (Elt Ideal)
          (mm (relu (addRow (mm (V c main_arg2) (V c main_v4)) (V c main_v2))) (V c main_arg8) : Mat 10000 40) := by
  show (cfg1.win 5).cut (grid1.coords t) ((dat1 V c).after 5 t) = _
  rw [after1_5]
  unfold out1_5
  rw [View.canon_unit_zero zeroOffsets]
  simp only [View.ld_unit_zero (S := S400x10000) zeroOffsets, View.ld_unit_zero (S := S10000x64) zeroOffsets,
    View.ld_unit_zero (S := S1x64) zeroOffsets, View.ld_unit_zero (S := S64x40) zeroOffsets]
  have ht : t.val < 25 := lt_of_lt_of_eq t.isLt N_1
  obtain ⟨-, -, -, -, -, -, -, -, -, -, e0, e1⟩ := blockIndices t
  refine funext fun (y : S400x40.Idx) => ?_
  obtain ⟨p, j, rfl⟩ : ∃ (p : Fin 400) (j : Fin 40), y = ix2 p j := ⟨y 0, y 1, eq_ix2 y⟩
  show k1_pay2 (F := Ideal) (iblk1 V c 0 t) (iblk1 V c 1 t) (iblk1 V c 2 t) (iblk1 V c 3 t) (ix2 p j)
    = (mm (relu (addRow (mm (V c main_arg2) (V c main_v4)) (V c main_v2))) (V c main_arg8) : Mat 10000 40)
        (((cfg1.win 5).blk t).view.emb (ix2 p j))
  have hemb : ((cfg1.win 5).blk t).view.emb (ix2 p j)
      = (ix2 (⟨400 * t.val + p.val, by omega⟩ : Fin 10000) j : S10000x40.Idx) := by
    funext a; apply Fin.ext
    match a with
    | ⟨0, _⟩ => show win1_5.index t (0 : Fin 2) * 400 + 1 * p.val = 400 * t.val + p.val; omega
    | ⟨1, _⟩ => show win1_5.index t (1 : Fin 2) * 40 + 1 * j.val = j.val; omega
  rw [hemb]
  exact projectedBlock_eq V c t p j _ rfl

/-! ## The 25 blocks tile the 10000 rows -/

/-- An index of the first output is in point t's block iff each coordinate is in the block's range on its axis. -/
theorem mem_yembBlock (t : Fin cfg1.N) (i : S10000x64.Idx) :
    i ∈ ((cfg1.win 4).blk t).view.set ↔ ∀ a : Fin 2, win1_4.index t a * S400x64.size a ≤ (i a).val ∧ (i a).val < win1_4.index t a * S400x64.size a + S400x64.size a := by
  show i ∈ ((View.whole main_v5_0).slice (win1_4.rect t)).set ↔ _
  rw [View.set_slice_whole, Rect.mem_set_unit]
  exact Iff.rfl

/-- Row r of the first output is in the block of point r / 400. -/
theorem yembCovered (i : S10000x64.Idx) :
    ∃ t : Fin cfg1.N, (cfg1.win 4).flush t = true ∧ i ∈ ((cfg1.win 4).blk t).view.set := by
  have hi0 : (i 0).val < 10000 := (i 0).isLt
  have hi1 : (i 1).val < 64 := (i 1).isLt
  obtain ⟨t, ht⟩ : ∃ t : Fin cfg1.N, t.val = (i 0).val / 400 :=
    ⟨⟨(i 0).val / 400, by rw [show cfg1.N = 25 from N_1]; omega⟩, rfl⟩
  obtain ⟨-, -, -, -, -, -, -, -, e0, e1, -⟩ := blockIndices t
  refine ⟨t, flush1_4 t, ?_⟩
  rw [mem_yembBlock]
  intro a
  match a with
  | ⟨0, _⟩ => show win1_4.index t (0 : Fin 2) * 400 ≤ (i 0).val ∧ (i 0).val < win1_4.index t (0 : Fin 2) * 400 + 400; omega
  | ⟨1, _⟩ => show win1_4.index t (1 : Fin 2) * 64 ≤ (i 1).val ∧ (i 1).val < win1_4.index t (1 : Fin 2) * 64 + 64; omega

/-- An index of the second output is in point t's block iff each coordinate is in the block's range on its axis. -/
theorem mem_s2Block (t : Fin cfg1.N) (i : S10000x40.Idx) :
    i ∈ ((cfg1.win 5).blk t).view.set ↔ ∀ a : Fin 2, win1_5.index t a * S400x40.size a ≤ (i a).val ∧ (i a).val < win1_5.index t a * S400x40.size a + S400x40.size a := by
  show i ∈ ((View.whole main_v5_1).slice (win1_5.rect t)).set ↔ _
  rw [View.set_slice_whole, Rect.mem_set_unit]
  exact Iff.rfl

/-- Row r of the second output is in the block of point r / 400. -/
theorem s2Covered (i : S10000x40.Idx) :
    ∃ t : Fin cfg1.N, (cfg1.win 5).flush t = true ∧ i ∈ ((cfg1.win 5).blk t).view.set := by
  have hi0 : (i 0).val < 10000 := (i 0).isLt
  have hi1 : (i 1).val < 40 := (i 1).isLt
  obtain ⟨t, ht⟩ : ∃ t : Fin cfg1.N, t.val = (i 0).val / 400 :=
    ⟨⟨(i 0).val / 400, by rw [show cfg1.N = 25 from N_1]; omega⟩, rfl⟩
  obtain ⟨-, -, -, -, -, -, -, -, -, -, e0, e1⟩ := blockIndices t
  refine ⟨t, flush1_5 t, ?_⟩
  rw [mem_s2Block]
  intro a
  match a with
  | ⟨0, _⟩ => show win1_5.index t (0 : Fin 2) * 400 ≤ (i 0).val ∧ (i 0).val < win1_5.index t (0 : Fin 2) * 400 + 400; omega
  | ⟨1, _⟩ => show win1_5.index t (1 : Fin 2) * 40 ≤ (i 1).val ∧ (i 1).val < win1_5.index t (1 : Fin 2) * 40 + 40; omega

/-! ## The two arrays after the region -/

/-- After region 1 its first output array holds relu (F · S₁ + b₁) of the arrays it was entered with. -/
theorem region1_yemb (c : Dev nD) :
    (dat1 V c).arrAt 4 cfg1.N
      = (relu (addRow (mm (V c main_arg2) (V c main_v4)) (V c main_v2)) : Mat 10000 64) :=
  (dat1 V c).arrAt_eq_of_cover 4 _ (fun t _ => flushedYemb V c t) yembCovered

/-- After region 1 its second output array holds (relu (F · S₁ + b₁)) · W₂. -/
theorem region1_s2 (c : Dev nD) :
    (dat1 V c).arrAt 5 cfg1.N
      = (mm (relu (addRow (mm (V c main_arg2) (V c main_v4)) (V c main_v2))) (V c main_arg8) : Mat 10000 40) :=
  (dat1 V c).arrAt_eq_of_cover 5 _ (fun t _ => flushedS2 V c t) s2Covered

end Cert.KernelIdeal.Region1

end
-- ==== Proof.Region2.lean ====
/-
  The third region's result array. Grid point t holds rows 400·t … 400·t + 399 of the adjacency C and the whole of
  S₂; its body forms the block's logits C_block · S₂ + b₂ and writes, row by row, z − (log ∑ exp(z − m) + m) with m the
  row's maximum into block t of the output. The 25 blocks tile the 10000 rows.
-/
import proofs.«106104_g84250078479002_cont_sun_c4_284_3_alg».proof.Proof.Gen.KernelIdeal.Frame
import proofs.«106104_g84250078479002_cont_sun_c4_284_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.GcnHead

-- the TensorCore's buffer contents when the region is entered
variable (V : (c : Dev nD) → (b : Ref sig .tc) → Buf (Elt Ideal) ((c : Thread nD τ).loc b))

/-! ## Two keepdims layouts read at an index -/

section Layout
variable {α : Type}

/-- A length-`a` vector cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## One row of the log-softmax, as a function of the row's entries -/

/-- Entry `q` of the log-softmax of a row `f`, spelled f q − (log ∑ exp(f − m) + m) with m the row's maximum. -/
def lsmRow {b : Nat} (f : Fin b → EReal) (q : Fin b) : EReal :=
  f q - (Ideal.log (∑ j : Fin b, Ideal.exp (f j - (Finset.univ : Finset (Fin b)).fold max ⊥ f))
    + (Finset.univ : Finset (Fin b)).fold max ⊥ f)

/-- The array's log-softmax at `(r, q)` is that function of row `r`. -/
theorem lsmK_row {a b : Nat} (Z : Mat a b) (r : Fin a) (q : Fin b) :
    lsmK Z (ix2 r q) = lsmRow (fun j => Z (ix2 r j)) q := rfl

/-- Two arrays with one row in common have the same log-softmax along it. -/
theorem lsmK_congr_row {a a' b : Nat} (Z : Mat a b) (Z' : Mat a' b) (r : Fin a) (r' : Fin a')
    (h : ∀ j : Fin b, Z (ix2 r j) = Z' (ix2 r' j)) (q : Fin b) : lsmK Z (ix2 r q) = lsmK Z' (ix2 r' q) := by
  rw [lsmK_row, lsmK_row, funext h]

/-! ## The body's two lane reductions, read at a row -/

/-- The row maximum from −∞, kept as an `a × 1` column: at `(r, u)` the maximum of row `r`'s 40 entries. -/
theorem rowMaxCol_apply (z : FVec Ideal S400x40 .f32) (r : Fin 400) (u : Fin 1) :
    shapeCast S400x1 (multiReduction (F := Ideal) .maximumf [1] S400 z 0xFF800000#32 reduces_S400x40_S400 (.inl rfl) rfl)
        shapeCasts_S400_S400x1 (ix2 r u)
      = (Finset.univ : Finset (Fin 40)).fold max ⊥ (fun j => z (ix2 r j)) := by
  refine (shapeCast_a_a1_apply _ shapeCasts_S400_S400x1 r u).trans ?_
  refine (Ideal.multiReduction_maximumf_single z 0xFF800000#32 reduces_S400x40_S400 (.inl rfl) rfl (ix1 r)).trans ?_
  show (Finset.univ : Finset (Fin 40)).fold max (Ideal.ofBits .f32 0xFF800000#32) (z ∘ reduces_S400x40_S400.lift (ix1 r)) = _
  rw [ofBits_neg_inf]
  refine congrArg (fun f : Fin 40 → EReal => (Finset.univ : Finset (Fin 40)).fold max ⊥ f) (funext fun j => congrArg z (funext fun a => Fin.ext ?_))
  match a with
  | ⟨0, _⟩ => rfl
  | ⟨1, _⟩ => rfl

/-- The row sum from 0, kept as an `a × 1` column: at `(r, u)` the sum of row `r`'s 40 entries. -/
theorem rowSumCol_apply (e : FVec Ideal S400x40 .f32) (r : Fin 400) (u : Fin 1) :
    shapeCast S400x1 (multiReduction (F := Ideal) .add [1] S400 e 0x00000000#32 reduces_S400x40_S400 (.inl rfl) rfl)
        shapeCasts_S400_S400x1 (ix2 r u)
      = ∑ j : Fin 40, e (ix2 r j) := by
  refine (shapeCast_a_a1_apply _ shapeCasts_S400_S400x1 r u).trans ?_
  refine (Ideal.multiReduction_add_single e 0x00000000#32 reduces_S400x40_S400 (.inl rfl) rfl (ix1 r)).trans ?_
  show ∑ j : Fin 40, e (reduces_S400x40_S400.lift (ix1 r) j) = _
  refine Finset.sum_congr rfl fun j _ => congrArg e (funext fun a => Fin.ext ?_)
  match a with
  | ⟨0, _⟩ => rfl
  | ⟨1, _⟩ => rfl

/-! ## The block's product, read at an index -/

-- the product's operand indices at output index `i` and contraction index `q`: the left operand is read at (i₀, q), the
-- right operand at (q, i₁), one coordinate at a time

theorem lhs_axis0 (i : S400x40.Idx) (q : dot_S400x10000_S10000x40_S400x40_1_0_0_1_n_n.contr.Idx) :
    (dot_S400x10000_S10000x40_S400x40_1_0_0_1_n_n.lhsIdx i q 0).val = (i 0).val := by
  unfold DotDims.lhsIdx
  rw [dif_neg (show ¬(0 : Fin S400x10000.rank) ∈ dot_S400x10000_S10000x40_S400x40_1_0_0_1_n_n.lhsBatch by decide), dif_pos (show (0 : Fin S400x10000.rank) ∈ dot_S400x10000_S10000x40_S400x40_1_0_0_1_n_n.lhsNonContracting by decide)]
  rfl
theorem lhs_axis1 (i : S400x40.Idx) (q : dot_S400x10000_S10000x40_S400x40_1_0_0_1_n_n.contr.Idx) :
    (dot_S400x10000_S10000x40_S400x40_1_0_0_1_n_n.lhsIdx i q 1).val = (q ⟨0, by decide⟩).val :=
  dot_S400x10000_S10000x40_S400x40_1_0_0_1_n_n.lhsIdx_val_of_single rfl i q
theorem rhs_axis0 (i : S400x40.Idx) (q : dot_S400x10000_S10000x40_S400x40_1_0_0_1_n_n.contr.Idx) :
    (dot_S400x10000_S10000x40_S400x40_1_0_0_1_n_n.rhsIdx i q 0).val = (q ⟨0, by decide⟩).val :=
  dot_S400x10000_S10000x40_S400x40_1_0_0_1_n_n.rhsIdx_val_of_single rfl i q
theorem rhs_axis1 (i : S400x40.Idx) (q : dot_S400x10000_S10000x40_S400x40_1_0_0_1_n_n.contr.Idx) :
    (dot_S400x10000_S10000x40_S400x40_1_0_0_1_n_n.rhsIdx i q 1).val = (i 1).val := by
  unfold DotDims.rhsIdx
  rw [dif_neg (show ¬(1 : Fin S10000x40.rank) ∈ dot_S400x10000_S10000x40_S400x40_1_0_0_1_n_n.rhsBatch by decide), dif_pos (show (1 : Fin S10000x40.rank) ∈ dot_S400x10000_S10000x40_S400x40_1_0_0_1_n_n.rhsNonContracting by decide)]
  rfl

/-- A 400 × 10000 block times a 10000 × 40 array, accumulated into zero: at `(r, q)` the sum over `k` of the
    block's row `r` times the array's column `q`. -/
theorem blockProduct_apply {φ₁ φ₂ : FTy} (A : FVec Ideal S400x10000 φ₁) (B : FVec Ideal S10000x40 φ₂) (r : Fin 400) (q : Fin 40) :
    matmul dot_S400x10000_S10000x40_S400x40_1_0_0_1_n_n none A B (constant (F := Ideal) S400x40 .f32 0x00000000#32) (ix2 r q)
      = ∑ k : Fin 10000, A (ix2 r k) * B (ix2 k q) := by
  simp only [matmul]
  rw [Ideal.matmul_constant_zero_apply, ← Equiv.sum_comp (ValueIdx.contrEquiv1 dot_S400x10000_S10000x40_S400x40_1_0_0_1_n_n 10000 rfl rfl).symm]
  refine Finset.sum_congr rfl fun k _ => ?_
  have hk := ValueIdx.contrEquiv1_symm_val dot_S400x10000_S10000x40_S400x40_1_0_0_1_n_n 10000 rfl rfl k
  have el : dot_S400x10000_S10000x40_S400x40_1_0_0_1_n_n.lhsIdx (ix2 r q) ((ValueIdx.contrEquiv1 dot_S400x10000_S10000x40_S400x40_1_0_0_1_n_n 10000 rfl rfl).symm k) = ix2 r k := funext fun a => Fin.ext (by
    match a with
    | ⟨0, _⟩ => exact lhs_axis0 _ _
    | ⟨1, _⟩ => exact (lhs_axis1 _ _).trans hk)
  have er : dot_S400x10000_S10000x40_S400x40_1_0_0_1_n_n.rhsIdx (ix2 r q) ((ValueIdx.contrEquiv1 dot_S400x10000_S10000x40_S400x40_1_0_0_1_n_n 10000 rfl rfl).symm k) = ix2 k q := funext fun a => Fin.ext (by
    match a with
    | ⟨0, _⟩ => exact (rhs_axis0 _ _).trans hk
    | ⟨1, _⟩ => exact rhs_axis1 _ _)
  rw [el, er]

/-! ## The body's payload, read at an index -/

/-- The block's logits: the block of the adjacency times the whole of S₂, plus the bias row. -/
def blockLogits (x0 : Vec Ideal S400x10000 .f32) (x1 : Vec Ideal S10000x40 .f32) (x2 : Vec Ideal S1x40 .f32) : FVec Ideal S400x40 .f32 :=
  addf (matmul dot_S400x10000_S10000x40_S400x40_1_0_0_1_n_n none (truncf .bf16 x0 bitsLt_bf16_f32)
      (truncf .bf16 (shapeCast S10000x40 x1 shapeCasts_S10000x40_S10000x40) bitsLt_bf16_f32) (constant (F := Ideal) S400x40 .f32 0x00000000#32))
    (broadcastTo S400x40 (shapeCast S1x40 x2 shapeCasts_S1x40_S1x40) broadcasts_S1x40_S400x40)

/-- At `(r, q)`: ∑ₖ x₀(r, k) · x₁(k, q) + x₂(0, q) — the format changes are the identity on the extended reals. -/
theorem blockLogits_apply (x0 : Vec Ideal S400x10000 .f32) (x1 : Vec Ideal S10000x40 .f32) (x2 : Vec Ideal S1x40 .f32)
    (r : Fin 400) (q : Fin 40) :
    blockLogits x0 x1 x2 (ix2 r q) = (addRow (mm x0 x1) x2 : Mat 400 40) (ix2 r q) := by
  unfold blockLogits
  rw [addf_apply, blockProduct_apply, broadcastTo_1b_ab_apply, shapeCast_self, shapeCast_self]
  rfl

/-- What the body does to the logits `z`: z − (log ∑ exp(z − m) + m), the row maximum m and the row sum kept as columns. -/
def normalise (z : FVec Ideal S400x40 .f32) : FVec Ideal S400x40 .f32 :=
  subf z (broadcastTo S400x40
    (addf
      (log (shapeCast S400x1
        (multiReduction (F := Ideal) .add [1] S400
          (exp (subf z (broadcastTo S400x40
            (shapeCast S400x1 (multiReduction (F := Ideal) .maximumf [1] S400 z 0xFF800000#32 reduces_S400x40_S400 (.inl rfl) rfl) shapeCasts_S400_S400x1)
            broadcasts_S400x1_S400x40)))
          0x00000000#32 reduces_S400x40_S400 (.inl rfl) rfl)
        shapeCasts_S400_S400x1))
      (shapeCast S400x1 (multiReduction (F := Ideal) .maximumf [1] S400 z 0xFF800000#32 reduces_S400x40_S400 (.inl rfl) rfl) shapeCasts_S400_S400x1))
    broadcasts_S400x1_S400x40)

/-- The payload is that function of the block's logits. -/
theorem payload_eq (x0 : Vec Ideal S400x10000 .f32) (x1 : Vec Ideal S10000x40 .f32) (x2 : Vec Ideal S1x40 .f32) :
    k2_pay1 (F := Ideal) x0 x1 x2 = normalise (blockLogits x0 x1 x2) := rfl

/-- At `(r, q)` it is the log-softmax entry of row `r` of `z`. -/
theorem normalise_apply (z : FVec Ideal S400x40 .f32) (r : Fin 400) (q : Fin 40) :
    normalise z (ix2 r q) = lsmRow (fun j => z (ix2 r j)) q := by
  unfold normalise
  rw [subf_apply, broadcastTo_a1_ab_apply, addf_apply, rowMaxCol_apply]
  show z (ix2 r q) - (Ideal.log (shapeCast S400x1 (multiReduction (F := Ideal) .add [1] S400
      (exp (subf z (broadcastTo S400x40
        (shapeCast S400x1 (multiReduction (F := Ideal) .maximumf [1] S400 z 0xFF800000#32 reduces_S400x40_S400 (.inl rfl) rfl) shapeCasts_S400_S400x1)
        broadcasts_S400x1_S400x40)))
      0x00000000#32 reduces_S400x40_S400 (.inl rfl) rfl) shapeCasts_S400_S400x1 (ix2 r (0 : Fin 1)))
    + (Finset.univ : Finset (Fin 40)).fold max ⊥ (fun j => z (ix2 r j))) = _
  rw [rowSumCol_apply]
  unfold lsmRow
  refine congrArg (fun s : EReal => z (ix2 r q) - (Ideal.log s + (Finset.univ : Finset (Fin 40)).fold max ⊥ (fun j => z (ix2 r j))))
    (Finset.sum_congr rfl fun j _ => ?_)
  show Ideal.exp (z (ix2 r j) - broadcastTo S400x40
      (shapeCast S400x1 (multiReduction (F := Ideal) .maximumf [1] S400 z 0xFF800000#32 reduces_S400x40_S400 (.inl rfl) rfl) shapeCasts_S400_S400x1)
      broadcasts_S400x1_S400x40 (ix2 r j)) = _
  rw [broadcastTo_a1_ab_apply, rowMaxCol_apply]

/-- THE PAYLOAD AT AN INDEX: the log-softmax, along row `r`, of the block's logits. -/
theorem payload_apply (x0 : Vec Ideal S400x10000 .f32) (x1 : Vec Ideal S10000x40 .f32) (x2 : Vec Ideal S1x40 .f32)
    (r : Fin 400) (q : Fin 40) :
    k2_pay1 (F := Ideal) x0 x1 x2 (ix2 r q) = lsmK (addRow (mm x0 x1) x2 : Mat 400 40) (ix2 r q) := by
  rw [payload_eq, normalise_apply, lsmK_row]
  exact congrArg (fun f : Fin 40 → EReal => lsmRow f q) (funext fun j => blockLogits_apply x0 x1 x2 r j)

/-- A block whose rows are rows 400·T … 400·T + 399 of `C`, beside the whole of `S` and of `b`: the payload at `j` is the
    array's log-softmax at the index `i` with `i₀ = 400·T + j₀`, `i₁ = j₁` — a row's maximum and sum are over the same 40
    logits on both sides. -/
theorem payload_eq_of_rows (C : Mat 10000 10000) (S : Mat 10000 40) (b : Mat 1 40)
    (x0 : Vec Ideal S400x10000 .f32) (x1 : Vec Ideal S10000x40 .f32) (x2 : Vec Ideal S1x40 .f32) (T : Nat)
    (h0 : ∀ (r : Fin 400) (k : Fin 10000) (R : Fin 10000), R.val = 400 * T + r.val → x0 (ix2 r k) = C (ix2 R k))
    (h1 : ∀ y, x1 y = S y) (h2 : ∀ y, x2 y = b y)
    (j : S400x40.Idx) (i : S10000x40.Idx) (hi0 : (i 0).val = 400 * T + (j 0).val) (hi1 : (i 1).val = (j 1).val) :
    k2_pay1 (F := Ideal) x0 x1 x2 j = lsmK (addRow (mm C S) b : Mat 10000 40) i := by
  obtain ⟨r, q, rfl⟩ : ∃ (r : Fin 400) (q : Fin 40), j = ix2 r q := ⟨j 0, j 1, eq_ix2 j⟩
  obtain ⟨R, q', rfl⟩ : ∃ (R : Fin 10000) (q' : Fin 40), i = ix2 R q' := ⟨i 0, i 1, eq_ix2 i⟩
  obtain rfl : q' = q := Fin.ext hi1
  obtain rfl : x1 = S := funext h1
  obtain rfl : x2 = b := funext h2
  rw [payload_apply]
  refine lsmK_congr_row _ _ r R (fun j => ?_) q'
  show (∑ k : Fin 10000, x0 (ix2 r k) * x1 (ix2 k j)) + x2 (ix2 (0 : Fin 1) j)
    = (∑ k : Fin 10000, C (ix2 R k) * x1 (ix2 k j)) + x2 (ix2 (0 : Fin 1) j)
  exact congrArg (· + x2 (ix2 (0 : Fin 1) j)) (Finset.sum_congr rfl fun k _ => by rw [h0 r k R hi0])

/-! ## From the 25 blocks to the array -/

theorem zeroOffsets : (![0, 0] : Fin 2 → Nat) = fun _ => 0 := funext fun a => by fin_cases a <;> rfl

/-- The printed index maps, decided over the 25 points: the adjacency's block and the output's block are block `t` along
    the rows; S₂ and the bias are whole at every point. -/
theorem blockIndices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- WHAT POINT `t` WRITES BACK is block `t` of the log-softmax of C · S₂ + b₂ over the arrays as the region finds them. -/
theorem flushed_eq (c : Dev nD) (t : Fin cfg2.N) :
    (dat2 V c).flushed 3 t = ((cfg2.win 3).blk t).view.read (Elt Ideal)
      (lsmK (addRow (mm (V c main_arg3) (V c main_v5_1)) (V c main_v3)) : Mat 10000 40) := by
  show (cfg2.win 3).cut (grid2.coords t) ((dat2 V c).after 3 t) = _
  rw [after2_3]
  unfold out2_3
  rw [View.canon_unit_zero zeroOffsets]
  simp only [View.ld_unit_zero (S := S400x10000) zeroOffsets, View.ld_unit_zero (S := S10000x40) zeroOffsets,
    View.ld_unit_zero (S := S1x40) zeroOffsets]
  obtain ⟨e0, e1, e2, e3, e4, e5, e6, e7⟩ := blockIndices t
  funext j
  refine payload_eq_of_rows (V c main_arg3) (V c main_v5_1) (V c main_v3) (iblk2 V c 0 t) (iblk2 V c 1 t) (iblk2 V c 2 t) t.val
    ?_ ?_ ?_ j (((cfg2.win 3).blk t).view.emb j) ?_ ?_
  · -- row r of the adjacency's block is row 400·t + r of the adjacency
    intro r k R hR
    show V c main_arg3 (((cfg2.win 0).blk t).view.emb (ix2 r k)) = V c main_arg3 (ix2 R k)
    refine congrArg (V c main_arg3) (funext fun a => Fin.ext ?_)
    match a with
    | ⟨0, _⟩ => show win2_0.index t (0 : Fin 2) * 400 + 1 * r.val = R.val; omega
    | ⟨1, _⟩ => show win2_0.index t (1 : Fin 2) * 10000 + 1 * k.val = k.val; omega
  · -- S₂'s block is the whole of S₂
    intro y
    show V c main_v5_1 (((cfg2.win 1).blk t).view.emb y) = V c main_v5_1 y
    refine congrArg (V c main_v5_1) (funext fun a => Fin.ext ?_)
    match a with
    | ⟨0, _⟩ => show win2_1.index t (0 : Fin 2) * 10000 + 1 * (y 0).val = (y 0).val; omega
    | ⟨1, _⟩ => show win2_1.index t (1 : Fin 2) * 40 + 1 * (y 1).val = (y 1).val; omega
  · -- the bias's block is the whole bias row
    intro y
    show V c main_v3 (((cfg2.win 2).blk t).view.emb y) = V c main_v3 y
    refine congrArg (V c main_v3) (funext fun a => Fin.ext ?_)
    match a with
    | ⟨0, _⟩ => show win2_2.index t (0 : Fin 2) * 1 + 1 * (y 0).val = (y 0).val; omega
    | ⟨1, _⟩ => show win2_2.index t (1 : Fin 2) * 40 + 1 * (y 1).val = (y 1).val; omega
  · show win2_3.index t (0 : Fin 2) * 400 + 1 * (j 0).val = 400 * t.val + (j 0).val; omega
  · show win2_3.index t (1 : Fin 2) * 40 + 1 * (j 1).val = (j 1).val; omega

/-- An index of the output array is in point `t`'s block iff each coordinate is in the block's range on its axis. -/
theorem mem_blk (t : Fin cfg2.N) (i : S10000x40.Idx) :
    i ∈ ((cfg2.win 3).blk t).view.set ↔ ∀ a : Fin 2, win2_3.index t a * S400x40.size a ≤ (i a).val ∧ (i a).val < win2_3.index t a * S400x40.size a + S400x40.size a := by
  show i ∈ ((View.whole main_v6).slice (win2_3.rect t)).set ↔ _
  rw [View.set_slice_whole, Rect.mem_set_unit]
  exact Iff.rfl

/-- The 25 blocks of 400 rows tile the 10000 rows: row `r` is in the block of point `r / 400`. -/
theorem covered (i : S10000x40.Idx) :
    ∃ t : Fin cfg2.N, (cfg2.win 3).flush t = true ∧ i ∈ ((cfg2.win 3).blk t).view.set := by
  have hi0 : (i 0).val < 10000 := (i 0).isLt
  have hi1 : (i 1).val < 40 := (i 1).isLt
  have hN : grid2.N = 25 := N_2
  have ht : (i 0).val / 400 < cfg2.N := by show (i 0).val / 400 < grid2.N; omega
  obtain ⟨e0, e1, e2, e3, e4, e5, e6, e7⟩ := blockIndices ⟨(i 0).val / 400, ht⟩
  refine ⟨⟨(i 0).val / 400, ht⟩, flush2_3 _, ?_⟩
  rw [mem_blk]
  intro a
  match a with
  | ⟨0, _⟩ =>
    show win2_3.index ⟨(i 0).val / 400, ht⟩ (0 : Fin 2) * 400 ≤ (i 0).val ∧ (i 0).val < win2_3.index ⟨(i 0).val / 400, ht⟩ (0 : Fin 2) * 400 + 400
    rw [e6]; show (i 0).val / 400 * 400 ≤ (i 0).val ∧ (i 0).val < (i 0).val / 400 * 400 + 400; omega
  | ⟨1, _⟩ =>
    show win2_3.index ⟨(i 0).val / 400, ht⟩ (1 : Fin 2) * 40 ≤ (i 1).val ∧ (i 1).val < win2_3.index ⟨(i 0).val / 400, ht⟩ (1 : Fin 2) * 40 + 40
    rw [e7]; omega

/-- After region 2 its output array holds the log-softmax (spelled z − (log ∑ exp(z − m) + m)) of C · S₂ + b₂. -/
theorem region2_out (c : Dev nD) :
    (dat2 V c).arrAt 3 cfg2.N
      = (lsmK (addRow (mm (V c main_arg3) (V c main_v5_1)) (V c main_v3)) : Mat 10000 40) :=
  (dat2 V c).arrAt_eq_of_cover 3 _ (fun t _ => flushed_eq V c t) covered

end Cert.KernelIdeal.Region2

end
-- ==== Proof.KernelValue.lean ====
/-
  The idealized kernel's two result arrays as the head's functions of the ten inputs.

  The program is a short host stretch — the affine layer's weight transposed, the three biases laid out as rows —
  followed by three kernel regions, each entered with the buffers the one before left: the first region's output is
  the second's projected stack S₁, the second's two outputs are the activations (a result of the program) and their
  projection S₂, which the third region reads, and the third's output is the other result. Folding the three
  regions' values through those boundaries gives the activations as `Yemb` of the inputs and the normalised logits as
  `lsmK (Logits …)`: log-softmax in the kernel's spelling z − (log ∑ exp(z − m) + m).
-/
import proofs.«106104_g84250078479002_cont_sun_c4_284_3_alg».proof.Proof.Gen.KernelIdeal.Frame
import proofs.«106104_g84250078479002_cont_sun_c4_284_3_alg».proof.Proof.Spec
import proofs.«106104_g84250078479002_cont_sun_c4_284_3_alg».proof.Proof.Region0
import proofs.«106104_g84250078479002_cont_sun_c4_284_3_alg».proof.Proof.Region1
import proofs.«106104_g84250078479002_cont_sun_c4_284_3_alg».proof.Proof.Region2
import Idealize.ShloMosaic.Lib.Pipeline.Value
import Idealize.ShloMosaic.Lib.ValueIdx
import Idealize.ShloMosaic.Lib.StableHlo.Run

set_option maxRecDepth 16384

noncomputable section

namespace Cert.KernelIdeal.KernelValue

open Idealize.ShloMosaic Idealize.ShloMosaic.TcCoe Idealize.ShloMosaic.ValueIdx Idealize.ShloMosaic.StableHlo
open Idealize.SL.Sem
open Cert.KernelIdeal Cert.KernelIdeal.Gen Cert.GcnHead

variable (m : (ℓ : Loc nD τ sig) → Buf (Elt Ideal) ℓ) (ρ : Dev nD → PrngReg)

/-! ## The ten inputs, at their literal types -/

abbrev inXe (c : Dev nD) : Mat 2000 256 := m ((c : Thread nD τ).loc main_arg0)
abbrev inY (c : Dev nD) : Mat 8000 128 := m ((c : Thread nD τ).loc main_arg1)
abbrev inF (c : Dev nD) : Mat 10000 10000 := m ((c : Thread nD τ).loc main_arg2)
abbrev inC (c : Dev nD) : Mat 10000 10000 := m ((c : Thread nD τ).loc main_arg3)
abbrev inFW (c : Dev nD) : Mat 128 256 := m ((c : Thread nD τ).loc main_arg4)
abbrev inFb (c : Dev nD) : Arr 128 := m ((c : Thread nD τ).loc main_arg5)
abbrev inW1 (c : Dev nD) : Mat 128 64 := m ((c : Thread nD τ).loc main_arg6)
abbrev inB1 (c : Dev nD) : Arr 64 := m ((c : Thread nD τ).loc main_arg7)
abbrev inW2 (c : Dev nD) : Mat 64 40 := m ((c : Thread nD τ).loc main_arg8)
abbrev inB2 (c : Dev nD) : Arr 40 := m ((c : Thread nD τ).loc main_arg9)

/-! ## After the host stretch: what the first region is entered with -/

/-- A vector reshaped to one row reads, at (0, j), the vector at j. -/
theorem reshape_row {b : Nat} (v : Arr b) (h : (⟨1, ![b]⟩ : Shape).ShapeCasts ⟨2, ![1, b]⟩) :
    (shapeCast (⟨2, ![1, b]⟩ : Shape) v h : Mat 1 b) = rowOf v := by
  funext i
  refine (shapeCast_addUnit_apply ![b] v h i).trans (congrArg v ?_)
  funext a; match a with | ⟨0, _⟩ => rfl

/-- The transposed weight reads, at (k, j), the weight at (j, k). -/
theorem transpose_eq_tr (W : Mat 128 256) :
    (transpose S256x128 [1, 0] W transposes_S128x256_S256x128_1_0 : Mat 256 128) = tr W := by
  funext i
  exact transpose_apply _ _ _ i (ix2 (i 1) (i 0)) (fun b => by match b with | ⟨0, _⟩ => rfl | ⟨1, _⟩ => rfl)

theorem V1_arg0 (c : Dev nD) : V1 m ρ c main_arg0 = inXe m c := by
  show StableHlo.after hostOps0 (W0 m ρ c) (Proc.devRef .tc main_arg0) = _
  after_results <;> rfl
theorem V1_arg1 (c : Dev nD) : V1 m ρ c main_arg1 = inY m c := by
  show StableHlo.after hostOps0 (W0 m ρ c) (Proc.devRef .tc main_arg1) = _
  after_results <;> rfl
theorem V1_arg2 (c : Dev nD) : V1 m ρ c main_arg2 = inF m c := by
  show StableHlo.after hostOps0 (W0 m ρ c) (Proc.devRef .tc main_arg2) = _
  after_results <;> rfl
theorem V1_arg3 (c : Dev nD) : V1 m ρ c main_arg3 = inC m c := by
  show StableHlo.after hostOps0 (W0 m ρ c) (Proc.devRef .tc main_arg3) = _
  after_results <;> rfl
theorem V1_arg6 (c : Dev nD) : V1 m ρ c main_arg6 = inW1 m c := by
  show StableHlo.after hostOps0 (W0 m ρ c) (Proc.devRef .tc main_arg6) = _
  after_results <;> rfl
theorem V1_arg8 (c : Dev nD) : V1 m ρ c main_arg8 = inW2 m c := by
  show StableHlo.after hostOps0 (W0 m ρ c) (Proc.devRef .tc main_arg8) = _
  after_results <;> rfl
/-- The transposed weight. -/
theorem V1_v0 (c : Dev nD) : (V1 m ρ c main_v0 : Mat 256 128) = tr (inFW m c) := by
  have e : (V1 m ρ c main_v0 : Mat 256 128) = transpose S256x128 [1, 0] (inFW m c) transposes_S128x256_S256x128_1_0 := by
    show StableHlo.after hostOps0 (W0 m ρ c) (Proc.devRef .tc main_v0) = _
    after_results <;> rfl
  rw [e, transpose_eq_tr]
/-- The three biases as rows. -/
theorem V1_v1 (c : Dev nD) : (V1 m ρ c main_v1 : Mat 1 128) = rowOf (inFb m c) := by
  have e : (V1 m ρ c main_v1 : Mat 1 128) = shapeCast S1x128 (inFb m c) shapeCasts_S128_S1x128 := by
    show StableHlo.after hostOps0 (W0 m ρ c) (Proc.devRef .tc main_v1) = _
    after_results <;> rfl
  rw [e]; exact reshape_row _ _
theorem V1_v2 (c : Dev nD) : (V1 m ρ c main_v2 : Mat 1 64) = rowOf (inB1 m c) := by
  have e : (V1 m ρ c main_v2 : Mat 1 64) = shapeCast S1x64 (inB1 m c) shapeCasts_S64_S1x64 := by
    show StableHlo.after hostOps0 (W0 m ρ c) (Proc.devRef .tc main_v2) = _
    after_results <;> rfl
  rw [e]; exact reshape_row _ _
theorem V1_v3 (c : Dev nD) : (V1 m ρ c main_v3 : Mat 1 40) = rowOf (inB2 m c) := by
  have e : (V1 m ρ c main_v3 : Mat 1 40) = shapeCast S1x40 (inB2 m c) shapeCasts_S40_S1x40 := by
    show StableHlo.after hostOps0 (W0 m ρ c) (Proc.devRef .tc main_v3) = _
    after_results <;> rfl
  rw [e]; exact reshape_row _ _

/-! ## After the first region: what the second is entered with -/

/-- The projected stack S₁, written by the first region. -/
theorem V2_v4 (c : Dev nD) :
    (V2 m ρ c main_v4 : Mat 10000 64) = S1 (inXe m c) (inY m c) (inFW m c) (inFb m c) (inW1 m c) := by
  have h := (W2_arr m ρ c 5).trans (Region0.region0_value (V1 m ρ) c)
  rw [V1_arg0, V1_arg1, V1_arg6, V1_v0, V1_v1] at h
  exact h
theorem V2_arg2 (c : Dev nD) : V2 m ρ c main_arg2 = inF m c :=
  (W2_of_ne m ρ c main_arg2 (by decide)).trans (V1_arg2 m ρ c)
theorem V2_arg3 (c : Dev nD) : V2 m ρ c main_arg3 = inC m c :=
  (W2_of_ne m ρ c main_arg3 (by decide)).trans (V1_arg3 m ρ c)
theorem V2_arg8 (c : Dev nD) : V2 m ρ c main_arg8 = inW2 m c :=
  (W2_of_ne m ρ c main_arg8 (by decide)).trans (V1_arg8 m ρ c)
theorem V2_v2 (c : Dev nD) : (V2 m ρ c main_v2 : Mat 1 64) = rowOf (inB1 m c) :=
  (W2_of_ne m ρ c main_v2 (by decide)).trans (V1_v2 m ρ c)
theorem V2_v3 (c : Dev nD) : (V2 m ρ c main_v3 : Mat 1 40) = rowOf (inB2 m c) :=
  (W2_of_ne m ρ c main_v3 (by decide)).trans (V1_v3 m ρ c)

/-! ## After the second region: the activations, and what the third is entered with -/

/-- The activations relu (F · S₁ + b₁), written by the second region. -/
theorem W3_v5_0 (c : Dev nD) :
    (W3 m ρ c (Proc.devRef .tc main_v5_0) : Mat 10000 64)
      = Yemb (inXe m c) (inY m c) (inF m c) (inFW m c) (inFb m c) (inW1 m c) (inB1 m c) := by
  have h := (W3_arr m ρ c 4).trans (Region1.region1_yemb (V2 m ρ) c)
  rw [V2_arg2, V2_v4, V2_v2] at h
  exact h
/-- Their projection S₂ = Yemb · W₂, written by the second region. -/
theorem V3_v5_1 (c : Dev nD) :
    (V3 m ρ c main_v5_1 : Mat 10000 40)
      = mm (Yemb (inXe m c) (inY m c) (inF m c) (inFW m c) (inFb m c) (inW1 m c) (inB1 m c)) (inW2 m c) := by
  have h := (W3_arr m ρ c 5).trans (Region1.region1_s2 (V2 m ρ) c)
  rw [V2_arg2, V2_v4, V2_v2, V2_arg8] at h
  exact h
theorem V3_arg3 (c : Dev nD) : V3 m ρ c main_arg3 = inC m c :=
  (W3_of_ne m ρ c main_arg3 (by decide)).trans (V2_arg3 m ρ c)
theorem V3_v3 (c : Dev nD) : (V3 m ρ c main_v3 : Mat 1 40) = rowOf (inB2 m c) :=
  (W3_of_ne m ρ c main_v3 (by decide)).trans (V2_v3 m ρ c)

/-! ## After the third region: the two results -/

/-- The first result: the rows' log-softmax, in the kernel's spelling, of the logits of the inputs. -/
theorem W4_v6 (c : Dev nD) :
    (W4 m ρ c (Proc.devRef .tc main_v6) : Mat 10000 40)
      = lsmK (Logits (inXe m c) (inY m c) (inF m c) (inC m c) (inFW m c) (inFb m c) (inW1 m c) (inB1 m c) (inW2 m c) (inB2 m c)) := by
  have h := (W4_arr m ρ c 3).trans (Region2.region2_out (V3 m ρ) c)
  rw [V3_arg3, V3_v5_1, V3_v3] at h
  exact h

/-- The second result: the activations; the third region does not touch them. -/
theorem W4_v5_0 (c : Dev nD) :
    (W4 m ρ c (Proc.devRef .tc main_v5_0) : Mat 10000 64)
      = Yemb (inXe m c) (inY m c) (inF m c) (inFW m c) (inFb m c) (inW1 m c) (inB1 m c) :=
  (W4_of_ne m ρ c main_v5_0 (by decide)).trans (W3_v5_0 m ρ c)

end Cert.KernelIdeal.KernelValue

end
-- ==== Proof.RefValue.lean ====
/-
  The reference program's two results are the head's functions of the ten inputs.

  The reference computes the head as written: the affine layer on the embedded rows (a product with the transposed
  weight plus a broadcast bias), the concatenation under the given rows, the projection, the first adjacency product
  with bias and clipping at zero, the second projection and adjacency product with bias, and jax's log-softmax
  (z − m) − log ∑ exp(z − m) with m = max (−∞, maxⱼ z). Read one operation at a time, each result element is the
  corresponding element of `Yemb` and of `lsm (Logits …)`: a `dot_general` is the sum `mm` spells, the two broadcasts of a
  bias are `addRow … (rowOf …)`, the concatenation of the given rows and the mapped ones is `stack` (and a product of
  stacked rows is the stack of the products), the max-reduction from −∞ is `rowMax`, and the sum-reduction from 0 the
  sum inside `rowLse`.
-/
import proofs.«106104_g84250078479002_cont_sun_c4_284_3_alg».proof.Proof.RefRead
import proofs.«106104_g84250078479002_cont_sun_c4_284_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.RefRead Cert.GcnHead

/-! ## Indices -/

/-- Two rank-2 indices with the same coordinates are one index. -/
theorem idx2_ext {n0 n1 : Nat} (f g : (⟨2, ![n0, n1]⟩ : Shape).Idx) (h0 : (f 0).val = (g 0).val)
    (h1 : (f 1).val = (g 1).val) : f = g :=
  funext fun a => Fin.ext (by match a with | ⟨0, _⟩ => exact h0 | ⟨1, _⟩ => exact h1)

/-- Two rank-1 indices with the same coordinate are one index. -/
theorem idx1_ext {n0 : Nat} (f g : (⟨1, ![n0]⟩ : Shape).Idx) (h0 : (f 0).val = (g 0).val) : f = g :=
  funext fun a => Fin.ext (by match a with | ⟨0, _⟩ => exact h0)

/-! ## The affine layer on the embedded rows: x · Wᵀ + b -/

/-- The transposition stage is `tr`. -/
theorem val_main_v0_eq (x4 : Mat 128 256) : val_main_v0 (F := Ideal) x4 = tr x4 := by
  funext i
  rw [val_main_v0_apply]
  exact congrArg x4 (idx2_ext _ _ rfl rfl)

/-- The first product: entry (r, j) is ∑ₖ x(r, k) · Wᵀ(k, j). -/
theorem val_main_v1_eq (x0 : Mat 2000 256) (x4 : Mat 128 256) : val_main_v1 (F := Ideal) x0 x4 = mm x0 (tr x4) := by
  funext i
  rw [val_main_v1_apply, val_main_v0_eq]
  refine Finset.sum_congr rfl fun k _ => ?_
  exact congrArg₂ (· * ·) (congrArg x0 (idx2_ext _ _ rfl rfl)) (congrArg (tr x4) (idx2_ext _ _ rfl rfl))

/-- The bias, broadcast to one row and then down the rows, at (r, j) is the one-row array at (0, j). -/
theorem val_main_v3_at (x5 : Arr 128) (i : (⟨2, ![2000, 128]⟩ : Shape).Idx) :
    val_main_v3 (F := Ideal) x5 i = rowOf x5 (ix2 (0 : Fin 1) (i 1)) := by
  rw [val_main_v3_apply, val_main_v2_apply]
  exact congrArg x5 (idx1_ext _ _ rfl)

/-- The affine layer's result is the product plus the bias row. -/
theorem val_main_v4_eq (x0 : Mat 2000 256) (x4 : Mat 128 256) (x5 : Arr 128) :
    val_main_v4 (F := Ideal) x0 x4 x5 = addRow (mm x0 (tr x4)) (rowOf x5) := by
  funext i
  rw [val_main_v4_apply, val_main_v1_eq, val_main_v3_at]
  rfl

/-! ## The stack and its projection -/

/-- The concatenation at a row below 8000 reads the given rows at that row. -/
theorem concat_at_left (Y : Mat 8000 128) (X : Mat 2000 128) (i : (⟨2, ![10000, 128]⟩ : Shape).Idx) (r : Fin 8000)
    (hr : r.val = (i 0).val) :
    concatenate S10000x128 0 [⟨S8000x128, Y⟩, ⟨S2000x128, X⟩] concatenates_S8000x128_S2000x128_S10000x128_d0 i
      = Y (ix2 r (i 1)) :=
  concatenate_pair_apply_left (t := S10000x128) (s₁ := S8000x128) (s₂ := S2000x128) (0 : Fin 2) Y X
    concatenates_S8000x128_S2000x128_S10000x128_d0 i rfl (ix2 r (i 1))
    (fun b => by match b with | ⟨0, _⟩ => exact hr | ⟨1, _⟩ => rfl)

/-- The concatenation at a row from 8000 on reads the mapped rows at that row less 8000. -/
theorem concat_at_right (Y : Mat 8000 128) (X : Mat 2000 128) (i : (⟨2, ![10000, 128]⟩ : Shape).Idx) (r : Fin 2000)
    (hr : r.val + 8000 = (i 0).val) :
    concatenate S10000x128 0 [⟨S8000x128, Y⟩, ⟨S2000x128, X⟩] concatenates_S8000x128_S2000x128_S10000x128_d0 i
      = X (ix2 r (i 1)) :=
  concatenate_pair_apply_right (t := S10000x128) (s₁ := S8000x128) (s₂ := S2000x128) (0 : Fin 2) Y X
    concatenates_S8000x128_S2000x128_S10000x128_d0 i rfl rfl (ix2 r (i 1))
    (fun b => by match b with | ⟨0, _⟩ => exact fun hb => absurd rfl hb | ⟨1, _⟩ => exact fun _ => rfl)
    hr

/-- The concatenation along the rows of the 8000 given rows and the 2000 mapped rows is the stack of the two. -/
theorem concat_eq_stack (Y : Mat 8000 128) (X : Mat 2000 128) :
    concatenate S10000x128 0 [⟨S8000x128, Y⟩, ⟨S2000x128, X⟩] concatenates_S8000x128_S2000x128_S10000x128_d0
      = (stack Y X : Mat 10000 128) := by
  funext i
  have hi : (i 0).val < 10000 := idx2_lt0 i
  by_cases h : (i 0).val < 8000
  · rw [show (stack Y X : Mat 10000 128) i = Y (ix2 ⟨(i 0).val, h⟩ (i 1)) from dif_pos h]
    exact concat_at_left Y X i ⟨(i 0).val, h⟩ rfl
  · have h' : (i 0).val - 8000 < 2000 := by omega
    rw [show (stack Y X : Mat 10000 128) i = X (ix2 ⟨(i 0).val - 8000, h'⟩ (i 1)) from (dif_neg h).trans (dif_pos h')]
    exact concat_at_right Y X i ⟨(i 0).val - 8000, h'⟩ (by show (i 0).val - 8000 + 8000 = (i 0).val; omega)

/-- The concatenation stage is the stack of the given rows and the affine layer's result. -/
theorem val_main_v5_eq (x0 : Mat 2000 256) (x1 : Mat 8000 128) (x4 : Mat 128 256) (x5 : Arr 128) :
    val_main_v5 (F := Ideal) x0 x1 x4 x5 = (stack x1 (addRow (mm x0 (tr x4)) (rowOf x5)) : Mat 10000 128) := by
  unfold val_main_v5
  rw [val_main_v4_eq]
  exact concat_eq_stack x1 _

/-- The projection of the stack is the stack of the projections: S₁. -/
theorem val_main_v6_eq (x0 : Mat 2000 256) (x1 : Mat 8000 128) (x4 : Mat 128 256) (x5 : Arr 128) (x6 : Mat 128 64) :
    val_main_v6 (F := Ideal) x0 x1 x4 x5 x6 = S1 x0 x1 x4 x5 x6 := by
  have e : val_main_v6 (F := Ideal) x0 x1 x4 x5 x6
      = mm (stack x1 (addRow (mm x0 (tr x4)) (rowOf x5)) : Mat 10000 128) x6 := by
    funext i
    rw [val_main_v6_apply, val_main_v5_eq]
    refine Finset.sum_congr rfl fun k _ => ?_
    exact congrArg₂ (· * ·) (congrArg _ (idx2_ext _ _ rfl rfl)) (congrArg x6 (idx2_ext _ _ rfl rfl))
  rw [e, mm_stack]
  rfl

/-! ## The first convolution: relu (F · S₁ + b₁) -/

/-- The first adjacency product. -/
theorem val_main_v7_eq (x0 : Mat 2000 256) (x1 : Mat 8000 128) (x2 : Mat 10000 10000) (x4 : Mat 128 256) (x5 : Arr 128)
    (x6 : Mat 128 64) : val_main_v7 (F := Ideal) x0 x1 x2 x4 x5 x6 = mm x2 (S1 x0 x1 x4 x5 x6) := by
  funext i
  rw [val_main_v7_apply, val_main_v6_eq]
  refine Finset.sum_congr rfl fun k _ => ?_
  exact congrArg₂ (· * ·) (congrArg x2 (idx2_ext _ _ rfl rfl)) (congrArg _ (idx2_ext _ _ rfl rfl))

/-- The first convolution's bias at (r, j) is the one-row array at (0, j). -/
theorem val_main_v9_at (x7 : Arr 64) (i : (⟨2, ![10000, 64]⟩ : Shape).Idx) :
    val_main_v9 (F := Ideal) x7 i = rowOf x7 (ix2 (0 : Fin 1) (i 1)) := by
  rw [val_main_v9_apply, val_main_v8_apply]
  exact congrArg x7 (idx1_ext _ _ rfl)

/-- The first convolution before clipping. -/
theorem val_main_v10_eq (x0 : Mat 2000 256) (x1 : Mat 8000 128) (x2 : Mat 10000 10000) (x4 : Mat 128 256) (x5 : Arr 128)
    (x6 : Mat 128 64) (x7 : Arr 64) :
    val_main_v10 (F := Ideal) x0 x1 x2 x4 x5 x6 x7 = addRow (mm x2 (S1 x0 x1 x4 x5 x6)) (rowOf x7) := by
  funext i
  rw [val_main_v10_apply, val_main_v7_eq, val_main_v9_at]
  rfl

/-- The reference's second result (the first convolution's activations) is `Yemb` of the inputs. -/
theorem val_main_v11_eq_Yemb (x0 : Mat 2000 256) (x1 : Mat 8000 128) (x2 : Mat 10000 10000) (x4 : Mat 128 256) (x5 : Arr 128)
    (x6 : Mat 128 64) (x7 : Arr 64) :
    val_main_v11 (F := Ideal) x0 x1 x2 x4 x5 x6 x7 = Yemb x0 x1 x2 x4 x5 x6 x7 := by
  funext i
  rw [val_main_v11_apply, val_main_v10_eq, val_main_call0_v0_apply, val_main_call0_cst_apply]
  show max (addRow (mm x2 (S1 x0 x1 x4 x5 x6)) (rowOf x7) i) (Ideal.ofBits .f32 0x00000000#32) = _
  rw [Ideal.ofBits_zero_f32]
  rfl

/-! ## The second convolution's logits: C · (Yemb · W₂) + b₂ -/

/-- The second projection. -/
theorem val_main_v12_eq (x0 : Mat 2000 256) (x1 : Mat 8000 128) (x2 : Mat 10000 10000) (x4 : Mat 128 256) (x5 : Arr 128)
    (x6 : Mat 128 64) (x7 : Arr 64) (x8 : Mat 64 40) :
    val_main_v12 (F := Ideal) x0 x1 x2 x4 x5 x6 x7 x8 = mm (Yemb x0 x1 x2 x4 x5 x6 x7) x8 := by
  funext i
  rw [val_main_v12_apply, val_main_v11_eq_Yemb]
  refine Finset.sum_congr rfl fun k _ => ?_
  exact congrArg₂ (· * ·) (congrArg _ (idx2_ext _ _ rfl rfl)) (congrArg x8 (idx2_ext _ _ rfl rfl))

/-- The second adjacency product. -/
theorem val_main_v13_eq (x0 : Mat 2000 256) (x1 : Mat 8000 128) (x2 x3 : Mat 10000 10000) (x4 : Mat 128 256) (x5 : Arr 128)
    (x6 : Mat 128 64) (x7 : Arr 64) (x8 : Mat 64 40) :
    val_main_v13 (F := Ideal) x0 x1 x2 x3 x4 x5 x6 x7 x8 = mm x3 (mm (Yemb x0 x1 x2 x4 x5 x6 x7) x8) := by
  funext i
  rw [val_main_v13_apply, val_main_v12_eq]
  refine Finset.sum_congr rfl fun k _ => ?_
  exact congrArg₂ (· * ·) (congrArg x3 (idx2_ext _ _ rfl rfl)) (congrArg _ (idx2_ext _ _ rfl rfl))

/-- The second convolution's bias at (r, j) is the one-row array at (0, j). -/
theorem val_main_v15_at (x9 : Arr 40) (i : (⟨2, ![10000, 40]⟩ : Shape).Idx) :
    val_main_v15 (F := Ideal) x9 i = rowOf x9 (ix2 (0 : Fin 1) (i 1)) := by
  rw [val_main_v15_apply, val_main_v14_apply]
  exact congrArg x9 (idx1_ext _ _ rfl)

/-- The logits. -/
theorem val_main_v16_eq (x0 : Mat 2000 256) (x1 : Mat 8000 128) (x2 x3 : Mat 10000 10000) (x4 : Mat 128 256) (x5 : Arr 128)
    (x6 : Mat 128 64) (x7 : Arr 64) (x8 : Mat 64 40) (x9 : Arr 40) :
    val_main_v16 (F := Ideal) x0 x1 x2 x3 x4 x5 x6 x7 x8 x9 = Logits x0 x1 x2 x3 x4 x5 x6 x7 x8 x9 := by
  funext i
  rw [val_main_v16_apply, val_main_v13_eq, val_main_v15_at]
  rfl

/-! ## Log-softmax, as jax spells it: (z − m) − log ∑ exp(z − m), m = max (−∞, maxⱼ z) -/

/-- The row index `j` with column `k` put back is (j, k). -/
theorem lift_col (h : S10000x40.Reduces [1] S10000) (j : (⟨1, ![10000]⟩ : Shape).Idx) (k : Fin (S10000x40.size 1)) :
    h.lift j k = ix2 (j 0) (⟨k.val, k.isLt⟩ : Fin 40) :=
  idx2_ext _ _ rfl rfl

/-- From −∞ the max-reduction over the columns is, at row `j`, the row's maximum. -/
theorem hostReduce_max_row (Z : Mat 10000 40) (j : (⟨1, ![10000]⟩ : Shape).Idx) :
    Host.reduce (FloatOps.maximumf (F := Ideal) (φ := .f32)) Z (val_main_call1_cst (F := Ideal))
      reducesTo_S10000x40_S10000_d1 h_S_ j = rowMax Z (j 0) := by
  have h : S10000x40.Reduces [1] S10000 := by decide
  rw [Host.reduce_eq_fold_single (FloatOps.maximumf (F := Ideal) (φ := .f32)) Z _ reducesTo_S10000x40_S10000_d1 h h_S_]
  have hf : (Z ∘ h.lift j) = fun k : Fin 40 => Z (ix2 (j 0) k) := funext fun k => congrArg Z (lift_col h j k)
  have hb : val_main_call1_cst (F := Ideal) (Shape.Idx.first h_S_) = (⊥ : EReal) := ofBits_neg_inf
  rw [hb]
  exact congrArg (fun f => Finset.fold max (⊥ : EReal) f (Finset.univ : Finset (Fin 40))) hf

section Softmax

variable (x0 : Mat 2000 256) (x1 : Mat 8000 128) (x2 x3 : Mat 10000 10000) (x4 : Mat 128 256) (x5 : Arr 128)
  (x6 : Mat 128 64) (x7 : Arr 64) (x8 : Mat 64 40) (x9 : Arr 40)

/-- The max-reduction stage is the logits' row maximum. -/
theorem val_main_call1_v0_eq :
    val_main_call1_v0 (F := Ideal) x0 x1 x2 x3 x4 x5 x6 x7 x8 x9
      = fun j => rowMax (Logits x0 x1 x2 x3 x4 x5 x6 x7 x8 x9) (j 0) := by
  unfold val_main_call1_v0
  rw [val_main_v16_eq]
  exact funext fun j => hostReduce_max_row _ j

/-- The maximum with −∞ changes nothing: m is the row maximum. -/
theorem val_main_call1_v2_at (j : (⟨1, ![10000]⟩ : Shape).Idx) :
    val_main_call1_v2 (F := Ideal) x0 x1 x2 x3 x4 x5 x6 x7 x8 x9 j
      = rowMax (Logits x0 x1 x2 x3 x4 x5 x6 x7 x8 x9) (j 0) := by
  rw [val_main_call1_v2_apply, val_main_call1_v1_apply, val_main_call1_cst_0_apply, val_main_call1_v0_eq]
  show max (Ideal.ofBits .f32 0xFF800000#32) (rowMax (Logits x0 x1 x2 x3 x4 x5 x6 x7 x8 x9) (j 0)) = _
  rw [ofBits_neg_inf]
  exact max_eq_right bot_le

/-- m broadcast over the columns: at (r, j) it is row r's maximum. -/
theorem val_main_call1_v4_at (i : (⟨2, ![10000, 40]⟩ : Shape).Idx) :
    val_main_call1_v4 (F := Ideal) x0 x1 x2 x3 x4 x5 x6 x7 x8 x9 i
      = rowMax (Logits x0 x1 x2 x3 x4 x5 x6 x7 x8 x9) (i 0) := by
  rw [val_main_call1_v4_apply, val_main_call1_v3_apply, val_main_call1_v2_at]
  rfl

/-- z − m. -/
theorem val_main_call1_v5_at (i : (⟨2, ![10000, 40]⟩ : Shape).Idx) :
    val_main_call1_v5 (F := Ideal) x0 x1 x2 x3 x4 x5 x6 x7 x8 x9 i
      = Logits x0 x1 x2 x3 x4 x5 x6 x7 x8 x9 i - rowMax (Logits x0 x1 x2 x3 x4 x5 x6 x7 x8 x9) (i 0) := by
  rw [val_main_call1_v5_apply, val_main_v16_eq, val_main_call1_v4_at]
  rfl

/-- exp (z − m). -/
theorem val_main_call1_v6_at (i : (⟨2, ![10000, 40]⟩ : Shape).Idx) :
    val_main_call1_v6 (F := Ideal) x0 x1 x2 x3 x4 x5 x6 x7 x8 x9 i
      = Ideal.exp (Logits x0 x1 x2 x3 x4 x5 x6 x7 x8 x9 i - rowMax (Logits x0 x1 x2 x3 x4 x5 x6 x7 x8 x9) (i 0)) := by
  rw [val_main_call1_v6_apply, val_main_call1_v5_at]
  rfl

/-- From 0 the sum-reduction over the columns is, at row `j`, ∑ₖ exp (z(j, k) − m(j)). -/
theorem val_main_call1_v7_at (j : (⟨1, ![10000]⟩ : Shape).Idx) :
    val_main_call1_v7 (F := Ideal) x0 x1 x2 x3 x4 x5 x6 x7 x8 x9 j
      = ∑ k : Fin 40, Ideal.exp (Logits x0 x1 x2 x3 x4 x5 x6 x7 x8 x9 (ix2 (j 0) k)
          - rowMax (Logits x0 x1 x2 x3 x4 x5 x6 x7 x8 x9) (j 0)) := by
  rw [val_main_call1_v7_apply, val_main_call1_cst_1_apply]
  show Ideal.ofBits .f32 0x00000000#32 + _ = _
  rw [Ideal.ofBits_zero_f32, zero_add]
  refine Finset.sum_congr rfl fun k _ => ?_
  rw [val_main_call1_v6_at]
  exact congrArg (fun t => Ideal.exp (Logits x0 x1 x2 x3 x4 x5 x6 x7 x8 x9 t
    - rowMax (Logits x0 x1 x2 x3 x4 x5 x6 x7 x8 x9) (j 0))) (idx2_ext _ _ rfl rfl)

/-- The logarithm of that sum, broadcast over the columns: at (r, j) it is row r's log-sum. -/
theorem val_main_call1_v10_at (i : (⟨2, ![10000, 40]⟩ : Shape).Idx) :
    val_main_call1_v10 (F := Ideal) x0 x1 x2 x3 x4 x5 x6 x7 x8 x9 i
      = rowLse (Logits x0 x1 x2 x3 x4 x5 x6 x7 x8 x9) (i 0) := by
  rw [val_main_call1_v10_apply, val_main_call1_v9_apply, val_main_call1_v8_apply, val_main_call1_v7_at]
  rfl

end Softmax

/-- The reference's first result is the log-softmax, as jax spells it, of the logits of the inputs. -/
theorem val_main_v17_eq_lsm (x0 : Mat 2000 256) (x1 : Mat 8000 128) (x2 x3 : Mat 10000 10000) (x4 : Mat 128 256) (x5 : Arr 128)
    (x6 : Mat 128 64) (x7 : Arr 64) (x8 : Mat 64 40) (x9 : Arr 40) :
    val_main_v17 (F := Ideal) x0 x1 x2 x3 x4 x5 x6 x7 x8 x9 = lsm (Logits x0 x1 x2 x3 x4 x5 x6 x7 x8 x9) := by
  funext i
  rw [val_main_v17_apply, val_main_call1_v5_at, val_main_call1_v10_at]
  rfl

end Cert.ReferenceIdeal.RefValue

end
-- ==== Proof.lean ====
/-
  A graph-convolution head as three fused kernels, against its jnp reference, over the extended reals.

  Both programs compute, from ten arrays, the activations relu (F · S₁ + b₁) and the row-wise log-softmax of
  C · (activations · W₂) + b₂, where S₁ is the 8000 given rows and the 2000 affinely mapped embedded rows, all times
  W₁. The kernel multiplies the two groups of rows separately and writes them one above the other, streams each
  adjacency matrix in blocks of 400 rows, and spells log-softmax z − (log ∑ exp(z − m) + m); the reference multiplies
  the concatenated rows and spells it (z − m) − log ∑ exp(z − m). The products agree term by term (a product of stacked
  rows is the stack of the products; a row block of a product is the product of the row block). The two spellings of
  log-softmax agree because the row maximum m is a real number — on the extended reals −(L + m) = −L − m needs m
  finite — and m is real because every logit is: sums, products and maxima of real numbers are real, and under the
  precondition every input entry is real.

  The three frames: the kernel's two are the launch of its three regions over the host stretch; the reference's is its
  run with the results dropped. The idealization rewrote nothing, so `preserves` has no conjunct.
-/
import proofs.«106104_g84250078479002_cont_sun_c4_284_3_alg».proof.Defs
import proofs.«106104_g84250078479002_cont_sun_c4_284_3_alg».proof.Proof.Gen.Kernel
import proofs.«106104_g84250078479002_cont_sun_c4_284_3_alg».proof.Proof.Gen.Kernel.Skeleton
import proofs.«106104_g84250078479002_cont_sun_c4_284_3_alg».proof.Proof.Gen.Kernel.Launch
import proofs.«106104_g84250078479002_cont_sun_c4_284_3_alg».proof.Proof.Gen.Kernel.Points
import proofs.«106104_g84250078479002_cont_sun_c4_284_3_alg».proof.Proof.Gen.Kernel.Frame
import proofs.«106104_g84250078479002_cont_sun_c4_284_3_alg».proof.Proof.Gen.KernelIdeal
import proofs.«106104_g84250078479002_cont_sun_c4_284_3_alg».proof.Proof.Gen.KernelIdeal.Skeleton
import proofs.«106104_g84250078479002_cont_sun_c4_284_3_alg».proof.Proof.Gen.KernelIdeal.Launch
import proofs.«106104_g84250078479002_cont_sun_c4_284_3_alg».proof.Proof.Gen.KernelIdeal.Points
import proofs.«106104_g84250078479002_cont_sun_c4_284_3_alg».proof.Proof.Gen.KernelIdeal.Frame
import proofs.«106104_g84250078479002_cont_sun_c4_284_3_alg».proof.Proof.Gen.ReferenceIdeal
import proofs.«106104_g84250078479002_cont_sun_c4_284_3_alg».proof.Proof.RefRead
import proofs.«106104_g84250078479002_cont_sun_c4_284_3_alg».proof.Proof.Gen.Pre_finite_inputs
import proofs.«106104_g84250078479002_cont_sun_c4_284_3_alg».proof.Proof.Spec
import proofs.«106104_g84250078479002_cont_sun_c4_284_3_alg».proof.Proof.Finite
import proofs.«106104_g84250078479002_cont_sun_c4_284_3_alg».proof.Proof.KernelRun
import proofs.«106104_g84250078479002_cont_sun_c4_284_3_alg».proof.Proof.KernelValue
import proofs.«106104_g84250078479002_cont_sun_c4_284_3_alg».proof.Proof.RefValue
import Idealize.ShloMosaic.Adequacy
import Idealize.ShloMosaic.Init

noncomputable section

namespace Cert.Proof

open Idealize.ShloMosaic Idealize.SL.Sem Cert.GcnHead

/-! ## The frames -/

theorem frame_kernel : Cert.frame_Kernel := fun m ρ _ => Cert.Kernel.Gen.frame m ρ

theorem frame_kernelIdeal : Cert.frame_KernelIdeal := fun m ρ _ => Cert.KernelIdeal.Gen.frame m ρ

/-- The reference's run, its two results dropped. -/
theorem frame_referenceIdeal : Cert.frame_ReferenceIdeal := fun m ρ _ =>
  (θ_run Cert.ReferenceIdeal.defs _ _).mono (fun _ h c => (h c).2.2) (Cert.ReferenceIdeal.RefRun.run (F := Ideal) m ρ)

/-! ## Equal results -/

/-- From memories agreeing on the ten inputs, all of real numbers, the kernel's run ends with the log-softmax of the
    logits in its own spelling and the activations, the reference's with jax's spelling and the same activations; the
    spellings agree on rows of real numbers. -/
theorem algebraic : Cert.algebraic_KernelIdeal_ReferenceIdeal := by
  intro m ρ m' ρ' hpre hagree
  refine ⟨fun c => lsm (Logits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))),
    fun c => Yemb (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.Gen.run_named (F := Ideal) m ρ)
    obtain ⟨h6, h5, hargs⟩ := h c
    obtain ⟨r0, r1, r2, r3, r4, r5, r6, r7, r8, r9⟩ := Cert.Pre_finite_inputs.Finite.isReal_of_pre _ _ _ _ _ _ _ _ _ _ (hpre c)
    refine ⟨h6.trans ((Cert.KernelIdeal.KernelValue.W4_v6 m ρ c).trans ?_), h5.trans (Cert.KernelIdeal.KernelValue.W4_v5_0 m ρ c), hargs⟩
    exact lsmK_eq_lsm _ (by decide) (isReal_Logits r0 r1 r2 r3 r4 r5 r6 r7 r8 r9)
  · refine (θ_run Cert.ReferenceIdeal.defs _ _).mono (fun r h c => ?_) (Cert.ReferenceIdeal.RefRun.run (F := Ideal) m' ρ')
    obtain ⟨h17, h11, hargs⟩ := h c
    obtain ⟨e0, e1, e2, e3, e4, e5, e6, e7, e8, e9⟩ := hagree c
    refine ⟨h17.trans ?_, h11.trans ?_, hargs⟩
    · rw [Cert.ReferenceIdeal.RefRead.val_main_v17_eq, e0, e1, e2, e3, e4, e5, e6, e7, e8, e9]
      exact Cert.ReferenceIdeal.RefValue.val_main_v17_eq_lsm _ _ _ _ _ _ _ _ _ _
    · rw [Cert.ReferenceIdeal.RefRead.val_main_v11_eq, e0, e1, e2, e4, e5, e6, e7]
      exact Cert.ReferenceIdeal.RefValue.val_main_v11_eq_Yemb _ _ _ _ _ _ _

/-! ## The claim -/

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
